-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x8 .f32) (main_arg9 : FVec F S1 .f32) (main_v33 : IVec S_ 1) : IVec S_ 1 :=
  let main_v34 : FVec F S1x8 .f32 := Host.absf main_arg8
  let main_cst_12 : FVec F S_ .f32 := constant S_ .f32 0x7F800000#32
  let main_v35 : FVec F S1x8 .f32 := broadcastInDim S1x8 ![] bcast_S_S1x8 main_cst_12
  let main_v36 : IVec S1x8 1 := cmpf .olt main_v34 main_v35
  let main_c_13 : IVec S_ 1 := constantI S_ 1 1#1
  let main_v37 : IVec S_ 1 := (fun x v => Host.reduce IntOp.andi x v reducesTo_S1x8_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S8x16 .f32) (main_arg6 : FVec F S8 .f32) (main_arg7 : FVec F S8x16 .f32) (main_arg8 : FVec F S1x8 .f32) (main_arg9 : FVec F S1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S8x16 .f32 := Host.absf main_arg5
  let main_cst_6 : FVec F S_ .f32 := constant S_ .f32 0x7F800000#32
  let main_v20 : FVec F S8x16 .f32 := broadcastInDim S8x16 ![] bcast_S_S8x16 main_cst_6
  let main_v21 : IVec S8x16 1 := cmpf .olt main_v19 main_v20
  let main_c_7 : IVec S_ 1 := constantI S_ 1 1#1
  let main_v22 : IVec S_ 1 := (fun x v => Host.reduce IntOp.andi x v reducesTo_S8x16_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x16 .f32 := Host.absf main_arg7
  let main_cst_10 : FVec F S_ .f32 := constant S_ .f32 0x7F800000#32
  let main_v30 : FVec F S8x16 .f32 := broadcastInDim S8x16 ![] bcast_S_S8x16 main_cst_10
  let main_v31 : IVec S8x16 1 := cmpf .olt main_v29 main_v30
  let main_c_11 : IVec S_ 1 := constantI S_ 1 1#1
  let main_v32 : IVec S_ 1 := (fun x v => Host.reduce IntOp.andi x v reducesTo_S8x16_S_d0_1 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1600000 32) (main_arg2 : FVec F S16x32 .f32) (main_arg3 : FVec F S16 .f32) (main_arg4 : FVec F S16x32 .f32) (main_arg5 : FVec F S8x16 .f32) (main_arg6 : FVec F S8 .f32) (main_arg7 : FVec F S8x16 .f32) (main_arg8 : FVec F S1x8 .f32) (main_arg9 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1600000 : Shape := ⟨2, ![2, 1600000]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S100000x16 : Shape := ⟨2, ![100000, 16]⟩
abbrev S5000x32 : Shape := ⟨2, ![5000, 32]⟩
abbrev S5000x16 : Shape := ⟨2, ![5000, 16]⟩
abbrev S32x16 : Shape := ⟨2, ![32, 16]⟩
abbrev S1x16 : Shape := ⟨2, ![1, 16]⟩
abbrev S1600000x16 : Shape := ⟨2, ![1600000, 16]⟩
abbrev S5000x1 : Shape := ⟨2, ![5000, 1]⟩
abbrev S16x8 : Shape := ⟨2, ![16, 8]⟩
abbrev S5000x8 : Shape := ⟨2, ![5000, 8]⟩
abbrev S8x1 : Shape := ⟨2, ![8, 1]⟩
abbrev S1x1 : Shape := ⟨2, ![1, 1]⟩

abbrev nBuf : Space → Nat
  | .hbm => 59
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S16x32, .f32⟩
  | .hbm, ⟨3, _⟩ => ⟨S16, .f32⟩
  | .hbm, ⟨4, _⟩ => ⟨S16x32, .f32⟩
  | .hbm, ⟨5, _⟩ => ⟨S8x16, .f32⟩
  | .hbm, ⟨6, _⟩ => ⟨S8, .f32⟩
  | .hbm, ⟨7, _⟩ => ⟨S8x16, .f32⟩
  | .hbm, ⟨8, _⟩ => ⟨S1x8, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x32, .f32⟩
  | .hbm, ⟨36, _⟩ => ⟨S_, .f32⟩
  | .hbm, ⟨37, _⟩ => ⟨S100000x32, .f32⟩
  | .hbm, ⟨38, _⟩ => ⟨S1600000x1, .i32⟩
  | .hbm, ⟨39, _⟩ => ⟨S100000x32, .f32⟩
  | .hbm, ⟨40, _⟩ => ⟨S100000x32, .f32⟩
  | .hbm, ⟨41, _⟩ => ⟨S100000x32, .f32⟩
  | .hbm, ⟨42, _⟩ => ⟨S100000x16, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x16, .f32⟩
  | .hbm, ⟨52, _⟩ => ⟨S_, .f32⟩
  | .hbm, ⟨53, _⟩ => ⟨S100000x16, .f32⟩
  | .hbm, ⟨54, _⟩ => ⟨S1600000x1, .i32⟩
  | .hbm, ⟨55, _⟩ => ⟨S100000x16, .f32⟩
  | .hbm, ⟨56, _⟩ => ⟨S100000x16, .f32⟩
  | .hbm, ⟨57, _⟩ => ⟨S100000x16, .f32⟩
  | .hbm, ⟨58, _⟩ => ⟨S100000x1, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S16x32, .f32⟩
  | .local _ .vmem, ⟨5, _⟩ => ⟨S16, .f32⟩
  | .local _ .vmem, ⟨6, _⟩ => ⟨S16x32, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S8x16, .f32⟩
  | .local _ .vmem, ⟨14, _⟩ => ⟨S8, .f32⟩
  | .local _ .vmem, ⟨15, _⟩ => ⟨S8x16, .f32⟩
  | .local _ .vmem, ⟨16, _⟩ => ⟨S1x8, .f32⟩
  | .local _ .vmem, ⟨17, _⟩ => ⟨S1, .f32⟩
  | .local _ .vmem, ⟨18, _⟩ => ⟨S5000x1, .f32⟩
  | .local _ .vmem, ⟨19, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  shapeCasts_S5000x32_S5000x32 : S5000x32.ShapeCasts S5000x32
  inb_S16x32_S16x32_0_0 : ∀ a, (![0, 0] : Fin 2 → Nat) a + S16x32.size a ≤ S16x32.size a
  h_S16x32 : 0 < S16x32.numel
  transposes_S16x32_p1_0_S32x16 : S16x32.Transposes [1, 0] S32x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S5000x16_S5000x16 : S5000x16.ShapeCasts S5000x16
  inb_S8x16_S8x16_0_0 : ∀ a, (![0, 0] : Fin 2 → Nat) a + S8x16.size a ≤ S8x16.size a
  h_S8x16 : 0 < S8x16.numel
  transposes_S8x16_p1_0_S16x8 : S8x16.Transposes [1, 0] S16x8
  inb_S8_S8_0 : ∀ a, (![0] : Fin 1 → Nat) a + S8.size a ≤ S8.size a
  h_S8 : 0 < S8.numel
  shapeCasts_S8_S1x8 : S8.ShapeCasts S1x8
  broadcasts_S1x8_S5000x8 : S1x8.Broadcasts S5000x8
  inb_S1x8_S1x8_0_0 : ∀ a, (![0, 0] : Fin 2 → Nat) a + S1x8.size a ≤ S1x8.size a
  h_S1x8 : 0 < S1x8.numel
  transposes_S1x8_p1_0_S8x1 : S1x8.Transposes [1, 0] S8x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x16_S5000x16_1_0_0_1_n_n_wf : DotDims.WF S5000x32 S32x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x8_S5000x8_1_0_0_1_n_n_wf : DotDims.WF S5000x16 S16x8 S5000x8 [1] [0] [0] [1] [] []
  dot_S5000x8_S8x1_S5000x1_1_0_0_1_n_n_wf : DotDims.WF S5000x8 S8x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x16.size a ≤ S8x16.size a
  hwx1_2 : ∀ i : grid1.Coords, EltTy.bits .f32 = 32 ∨ (Rect.block (s := S8x16) S8x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8.size a ≤ S8.size a
  hwx1_3 : ∀ i : grid1.Coords, EltTy.bits .f32 = 32 ∨ (Rect.block (s := S8) S8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x16.size a ≤ S8x16.size a
  hwx1_4 : ∀ i : grid1.Coords, EltTy.bits .f32 = 32 ∨ (Rect.block (s := S8x16) S8x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x8.size a ≤ S1x8.size a
  hwx1_5 : ∀ i : grid1.Coords, EltTy.bits .f32 = 32 ∨ (Rect.block (s := S1x8) S1x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def dot_S5000x8_S8x1_S5000x1_1_0_0_1_n_n : DotDims S5000x8 S8x1 S5000x1 where
  lhsContracting := [1]
  rhsContracting := [0]
  lhsNonContracting := [0]
  rhsNonContracting := [1]
  lhsBatch := []
  rhsBatch := []
  wf := dot_S5000x8_S8x1_S5000x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S8x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S8x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S32x16 : Shape := ⟨2, ![32, 16]⟩
abbrev S100000x16 : Shape := ⟨2, ![100000, 16]⟩
abbrev S1x16 : Shape := ⟨2, ![1, 16]⟩
abbrev S1600000x16 : Shape := ⟨2, ![1600000, 16]⟩
abbrev S16x8 : Shape := ⟨2, ![16, 8]⟩
abbrev S100000x8 : Shape := ⟨2, ![100000, 8]⟩
abbrev S8x1 : Shape := ⟨2, ![8, 1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S16x32, .f32⟩
  | .hbm, ⟨3, _⟩ => ⟨S16, .f32⟩
  | .hbm, ⟨4, _⟩ => ⟨S16x32, .f32⟩
  | .hbm, ⟨5, _⟩ => ⟨S8x16, .f32⟩
  | .hbm, ⟨6, _⟩ => ⟨S8, .f32⟩
  | .hbm, ⟨7, _⟩ => ⟨S8x16, .f32⟩
  | .hbm, ⟨8, _⟩ => ⟨S1x8, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x32, .f32⟩
  | .hbm, ⟨23, _⟩ => ⟨S_, .f32⟩
  | .hbm, ⟨24, _⟩ => ⟨S100000x32, .f32⟩
  | .hbm, ⟨25, _⟩ => ⟨S1600000x1, .i32⟩
  | .hbm, ⟨26, _⟩ => ⟨S100000x32, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x32, .f32⟩
  | .hbm, ⟨38, _⟩ => ⟨S100000x32, .f32⟩
  | .hbm, ⟨39, _⟩ => ⟨S32x16, .f32⟩
  | .hbm, ⟨40, _⟩ => ⟨S100000x16, .f32⟩
  | .hbm, ⟨41, _⟩ => ⟨S1x16, .f32⟩
  | .hbm, ⟨42, _⟩ => ⟨S100000x16, .f32⟩
  | .hbm, ⟨43, _⟩ => ⟨S100000x16, .f32⟩
  | .hbm, ⟨44, _⟩ => ⟨S32x16, .f32⟩
  | .hbm, ⟨45, _⟩ => ⟨S100000x16, .f32⟩
  | .hbm, ⟨46, _⟩ => ⟨S100000x16, .f32⟩
  | .hbm, ⟨47, _⟩ => ⟨S_, .f32⟩
  | .hbm, ⟨48, _⟩ => ⟨S100000x16, .f32⟩
  | .hbm, ⟨49, _⟩ => ⟨S100000x16, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x16, .f32⟩
  | .hbm, ⟨59, _⟩ => ⟨S_, .f32⟩
  | .hbm, ⟨60, _⟩ => ⟨S100000x16, .f32⟩
  | .hbm, ⟨61, _⟩ => ⟨S1600000x1, .i32⟩
  | .hbm, ⟨62, _⟩ => ⟨S100000x16, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x16, .f32⟩
  | .hbm, ⟨74, _⟩ => ⟨S100000x16, .f32⟩
  | .hbm, ⟨75, _⟩ => ⟨S16x8, .f32⟩
  | .hbm, ⟨76, _⟩ => ⟨S100000x8, .f32⟩
  | .hbm, ⟨77, _⟩ => ⟨S1x8, .f32⟩
  | .hbm, ⟨78, _⟩ => ⟨S100000x8, .f32⟩
  | .hbm, ⟨79, _⟩ => ⟨S100000x8, .f32⟩
  | .hbm, ⟨80, _⟩ => ⟨S16x8, .f32⟩
  | .hbm, ⟨81, _⟩ => ⟨S100000x8, .f32⟩
  | .hbm, ⟨82, _⟩ => ⟨S100000x8, .f32⟩
  | .hbm, ⟨83, _⟩ => ⟨S8x1, .f32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  transposes_S8x16_S16x8_1_0 : S8x16.Transposes [1, 0] S16x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  transposes_S1x8_S8x1_1_0 : S1x8.Transposes [1, 0] S8x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x8_S100000x8_1_0_0_1_n_n_wf : DotDims.WF S100000x16 S16x8 S100000x8 [1] [0] [0] [1] [] []
  dot_S100000x8_S8x1_S100000x1_1_0_0_1_n_n_wf : DotDims.WF S100000x8 S8x1 S100000x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def dot_S100000x8_S8x1_S100000x1_1_0_0_1_n_n : DotDims S100000x8 S8x1 S100000x1 where
  lhsContracting := [1]
  rhsContracting := [0]
  lhsNonContracting := [0]
  rhsNonContracting := [1]
  lhsBatch := []
  rhsBatch := []
  wf := dot_S100000x8_S8x1_S100000x1_1_0_0_1_n_n_wf

class Facts : Prop extends Facts₀ where

variable [Facts]
-- ==== Proof.KernelHost.lean ====
/-
  What the kernel program's host stretches compute, read off the buffer contents at each boundary.

  Before the first kernel region the host makes, from the edge list `e : [2, 1600000]` (row 0 the sources, row 1 the
  destinations) and the features `x`: the in-degree `deg` (ones scatter-added at the destinations), the column
  `1 / max(deg, 1)`, the features gathered at the sources (a negative source wrapped once) and scatter-added at the
  destinations (`agg32`), and their product with the spread column (`mean32`). Between the regions it does the same to
  the first region's result `h` (`agg16`, `mean16`), with the SAME column. The gathers and scatter-adds stay opaque:
  both programs apply them to equal operands.
-/
import proofs.«140144_j22299470201097_1_alg».proof.Proof.Gen.KernelIdeal.Frame
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-- Row `k` of the edge list as a vector of `1600000` words (`k = 0`: sources). -/
def src1d (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
/-- Row 1 of the edge list: destinations. -/
def dst1d (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000
/-- The destinations as a column of scatter indices. -/
def dstCol (e : (⟨S2x1600000, .i32⟩ : BufTy).Contents (Elt F)) : (⟨S1600000x1, .i32⟩ : BufTy).Contents (Elt F) :=
  broadcastInDim S1600000x1 ![0] bcast_S1600000_S1600000x1_0 (dst1d (F := F) e)
/-- The sources, a negative one wrapped by the node count, as a column of gather indices. -/
def srcCol (e : (⟨S2x1600000, .i32⟩ : BufTy).Contents (Elt F)) : (⟨S1600000x1, .i32⟩ : BufTy).Contents (Elt F) :=
  broadcastInDim S1600000x1 ![0] bcast_S1600000_S1600000x1_0
    (select (cmpi .slt (src1d (F := F) e) (broadcastInDim S1600000 ![] bcast_S_S1600000 (constantI S_ 32 0#32)))
      (addi (src1d (F := F) e) (broadcastInDim S1600000 ![] bcast_S_S1600000 (constantI S_ 32 100000#32))) (src1d (F := F) e))
/-- The vector of ones over the nodes. -/
def ones : (⟨S100000, .f32⟩ : BufTy).Contents (Elt F) :=
  broadcastInDim S100000 ![] bcast_S_S100000 (constant (F := F) S_ .f32 0x3F800000#32)
/-- The in-degree of every node. -/
def deg (e : (⟨S2x1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant (F := F) S_ .f32 0x00000000#32))
    (dstCol (F := F) e) (broadcastInDim S1600000 ![] bcast_S_S1600000 (constant (F := F) S_ .f32 0x3F800000#32))
/-- The column `1 / max(deg, 1)`. -/
def invCol (e : (⟨S2x1600000, .i32⟩ : BufTy).Contents (Elt F)) : (⟨S100000x1, .f32⟩ : BufTy).Contents (Elt F) :=
  broadcastInDim S100000x1 ![0] bcast_S100000_S100000x1_0 (Host.divf (ones (F := F)) (maximumf (deg (F := F) e) (ones (F := F))))
/-- The features of the sources summed at the destinations. -/
def agg32 (x : (⟨S100000x32, .f32⟩ : BufTy).Contents (Elt F)) (e : (⟨S2x1600000, .i32⟩ : BufTy).Contents (Elt F)) :
    (⟨S100000x32, .f32⟩ : BufTy).Contents (Elt F) :=
  Host.scatterAdd scatter_S100000x32_S1600000x1_S1600000x32_1_0_0_1 (broadcastInDim S100000x32 ![] bcast_S_S100000x32 (constant (F := F) S_ .f32 0x00000000#32))
    (dstCol (F := F) e) (Host.gather gather_S100000x32_S1600000x1_S1600000x32_1_0_n_n_0_1_132 x (srcCol (F := F) e))
/-- The first layer's neighbourhood means. -/
def mean32 (x : (⟨S100000x32, .f32⟩ : BufTy).Contents (Elt F)) (e : (⟨S2x1600000, .i32⟩ : BufTy).Contents (Elt F)) :
    (⟨S100000x32, .f32⟩ : BufTy).Contents (Elt F) :=
  mulf (agg32 (F := F) x e) (broadcastInDim S100000x32 ![0, 1] bcast_S100000x1_S100000x32_0_1 (invCol (F := F) e))
/-- The hidden features of the sources summed at the destinations. -/
def agg16 (h : (⟨S100000x16, .f32⟩ : BufTy).Contents (Elt F)) (e : (⟨S2x1600000, .i32⟩ : BufTy).Contents (Elt F)) :
    (⟨S100000x16, .f32⟩ : BufTy).Contents (Elt F) :=
  Host.scatterAdd scatter_S100000x16_S1600000x1_S1600000x16_1_0_0_1 (broadcastInDim S100000x16 ![] bcast_S_S100000x16 (constant (F := F) S_ .f32 0x00000000#32))
    (dstCol (F := F) e) (Host.gather gather_S100000x16_S1600000x1_S1600000x16_1_0_n_n_0_1_116 h (srcCol (F := F) e))
/-- The second layer's neighbourhood means. -/
def mean16 (h : (⟨S100000x16, .f32⟩ : BufTy).Contents (Elt F)) (e : (⟨S2x1600000, .i32⟩ : BufTy).Contents (Elt F)) :
    (⟨S100000x16, .f32⟩ : BufTy).Contents (Elt F) :=
  mulf (agg16 (F := F) h e) (broadcastInDim S100000x16 ![0, 1] bcast_S100000x1_S100000x16_0_1 (invCol (F := F) e))

variable (m : (ℓ : Loc nD τ sig) → Buf (Elt F) ℓ) (ρ : Dev nD → PrngReg)

/-! ## At the first region's entry -/

theorem V1_means (c : Dev nD) :
    V1 m ρ c main_v24 = mean32 (F := F) (m ((c.tc : Thread nD τ).loc main_arg0)) (m ((c.tc : Thread nD τ).loc main_arg1)) := by
  show StableHlo.after hostOps0 (W0 m ρ c) (Proc.devRef .tc main_v24) = _
  after_results_simp
  rfl

theorem V1_sources (c : Dev nD) : V1 m ρ c main_v1 = src1d (F := F) (m ((c.tc : Thread nD τ).loc main_arg1)) := by
  show StableHlo.after hostOps0 (W0 m ρ c) (Proc.devRef .tc main_v1) = _
  after_results_simp
  rfl

theorem V1_dests (c : Dev nD) : V1 m ρ c main_v3 = dst1d (F := F) (m ((c.tc : Thread nD τ).loc main_arg1)) := by
  show StableHlo.after hostOps0 (W0 m ρ c) (Proc.devRef .tc main_v3) = _
  after_results_simp
  rfl

theorem V1_invCol (c : Dev nD) : V1 m ρ c main_v12 = invCol (F := F) (m ((c.tc : Thread nD τ).loc main_arg1)) := by
  show StableHlo.after hostOps0 (W0 m ρ c) (Proc.devRef .tc main_v12) = _
  after_results_simp
  rfl

theorem V1_arg0 (c : Dev nD) : V1 m ρ c main_arg0 = m ((c.tc : Thread nD τ).loc main_arg0) := by
  show StableHlo.after hostOps0 (W0 m ρ c) (Proc.devRef .tc main_arg0) = _
  after_results_simp
theorem V1_arg2 (c : Dev nD) : V1 m ρ c main_arg2 = m ((c.tc : Thread nD τ).loc main_arg2) := by
  show StableHlo.after hostOps0 (W0 m ρ c) (Proc.devRef .tc main_arg2) = _
  after_results_simp
theorem V1_arg3 (c : Dev nD) : V1 m ρ c main_arg3 = m ((c.tc : Thread nD τ).loc main_arg3) := by
  show StableHlo.after hostOps0 (W0 m ρ c) (Proc.devRef .tc main_arg3) = _
  after_results_simp
theorem V1_arg4 (c : Dev nD) : V1 m ρ c main_arg4 = m ((c.tc : Thread nD τ).loc main_arg4) := by
  show StableHlo.after hostOps0 (W0 m ρ c) (Proc.devRef .tc main_arg4) = _
  after_results_simp

/-! ## At the second region's entry -/

/-- The hidden features are what the first region left. -/
theorem V3_hidden (c : Dev nD) : V3 m ρ c main_v25 = (dat0 (V1 m ρ) c).arrAt 5 cfg0.N := by
  show StableHlo.after hostOps1 (W2 m ρ c) (Proc.devRef .tc main_v25) = _
  after_results_simp
  exact W2_arr m ρ c 5

/-- The second layer's means are made of the hidden features with the sources, destinations and reciprocal column
    computed before the first region. -/
theorem V3_means (c : Dev nD) :
    V3 m ρ c main_v37 = mean16 (F := F) ((dat0 (V1 m ρ) c).arrAt 5 cfg0.N) (m ((c.tc : Thread nD τ).loc main_arg1)) := by
  have h25 : W2 m ρ c (Proc.devRef .tc main_v25) = (dat0 (V1 m ρ) c).arrAt 5 cfg0.N := W2_arr m ρ c 5
  have h1 : W2 m ρ c (Proc.devRef .tc main_v1) = src1d (F := F) (m ((c.tc : Thread nD τ).loc main_arg1)) :=
    (W2_of_ne m ρ c main_v1 (by decide)).trans (V1_sources m ρ c)
  have h3 : W2 m ρ c (Proc.devRef .tc main_v3) = dst1d (F := F) (m ((c.tc : Thread nD τ).loc main_arg1)) :=
    (W2_of_ne m ρ c main_v3 (by decide)).trans (V1_dests m ρ c)
  have h12 : W2 m ρ c (Proc.devRef .tc main_v12) = invCol (F := F) (m ((c.tc : Thread nD τ).loc main_arg1)) :=
    (W2_of_ne m ρ c main_v12 (by decide)).trans (V1_invCol m ρ c)
  show StableHlo.after hostOps1 (W2 m ρ c) (Proc.devRef .tc main_v37) = _
  after_results_simp
  rw [h25, h1, h3, h12]
  rfl

theorem V3_arg5 (c : Dev nD) : V3 m ρ c main_arg5 = m ((c.tc : Thread nD τ).loc main_arg5) := by
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp
theorem V3_arg6 (c : Dev nD) : V3 m ρ c main_arg6 = m ((c.tc : Thread nD τ).loc main_arg6) := by
  show StableHlo.after hostOps1 (W2 m ρ c) (Proc.devRef .tc main_arg6) = _
  after_results_simp
  rw [W2_of_ne m ρ c main_arg6 (by decide)]
  show StableHlo.after hostOps0 (W0 m ρ c) (Proc.devRef .tc main_arg6) = _
  after_results_simp
theorem V3_arg7 (c : Dev nD) : V3 m ρ c main_arg7 = m ((c.tc : Thread nD τ).loc main_arg7) := by
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp
theorem V3_arg8 (c : Dev nD) : V3 m ρ c main_arg8 = m ((c.tc : Thread nD τ).loc main_arg8) := by
  show StableHlo.after hostOps1 (W2 m ρ c) (Proc.devRef .tc main_arg8) = _
  after_results_simp
  rw [W2_of_ne m ρ c main_arg8 (by decide)]
  show StableHlo.after hostOps0 (W0 m ρ c) (Proc.devRef .tc main_arg8) = _
  after_results_simp
theorem V3_arg9 (c : Dev nD) : V3 m ρ c main_arg9 = m ((c.tc : Thread nD τ).loc main_arg9) := by
  show StableHlo.after hostOps1 (W2 m ρ c) (Proc.devRef .tc main_arg9) = _
  after_results_simp
  rw [W2_of_ne m ρ c main_arg9 (by decide)]
  show StableHlo.after hostOps0 (W0 m ρ c) (Proc.devRef .tc main_arg9) = _
  after_results_simp

end Cert.KernelIdeal.HostValue

end
-- ==== Proof.Spec.lean ====
/-
  What both programs compute, index by index, over the extended reals.

  A mean-aggregating graph layer maps node features `x` and their neighbourhood means `mean` (both `[N, K]`) to
  `mean · Wlᵀ + bl + x · Wrᵀ`: entry `(r, j)` is `(∑ₖ mean(r,k) · Wl(j,k) + bl(j)) + ∑ₖ x(r,k) · Wr(j,k)` (`conv`), with the
  additions grouped exactly so. The network is two such layers, the first followed by `max(·, 0)` (`hidden`), the
  second by a linear head with one output, `∑_q layer(r,q) · Wfc(0,q) + bfc(0)` (`head`). Each is a function of the
  layer's two `[N, ·]` operands and of the weights; how the means are made is not its concern.
-/
import Idealize.ShloMosaic.Lib.ValueIdx

noncomputable section

namespace Cert.Sage

open Idealize.ShloMosaic Idealize.ShloMosaic.ValueIdx

/-- Entry `(r, j)` of one layer before its activation. -/
def conv {N K M : ℕ} (x mean : FVec Ideal ⟨2, ![N, K]⟩ .f32) (Wl : FVec Ideal ⟨2, ![M, K]⟩ .f32)
    (bl : FVec Ideal ⟨1, ![M]⟩ .f32) (Wr : FVec Ideal ⟨2, ![M, K]⟩ .f32) (r : Fin N) (j : Fin M) : EReal :=
  ((∑ k : Fin K, mean (ix2 r k) * Wl (ix2 j k)) + bl (ix1 j)) + ∑ k : Fin K, x (ix2 r k) * Wr (ix2 j k)

/-- The first layer with its rectifier: `[100000, 32] → [100000, 16]`. -/
def hidden (x mean : FVec Ideal ⟨2, ![100000, 32]⟩ .f32) (Wl : FVec Ideal ⟨2, ![16, 32]⟩ .f32)
    (bl : FVec Ideal ⟨1, ![16]⟩ .f32) (Wr : FVec Ideal ⟨2, ![16, 32]⟩ .f32) : FVec Ideal ⟨2, ![100000, 16]⟩ .f32 :=
  fun i => max (conv x mean Wl bl Wr (i 0) (i 1)) 0

/-- The second layer and the one-output linear head: `[100000, 16] → [100000, 1]`. -/
def head (h mean : FVec Ideal ⟨2, ![100000, 16]⟩ .f32) (Wl : FVec Ideal ⟨2, ![8, 16]⟩ .f32)
    (bl : FVec Ideal ⟨1, ![8]⟩ .f32) (Wr : FVec Ideal ⟨2, ![8, 16]⟩ .f32) (Wfc : FVec Ideal ⟨2, ![1, 8]⟩ .f32)
    (bfc : FVec Ideal ⟨1, ![1]⟩ .f32) : FVec Ideal ⟨2, ![100000, 1]⟩ .f32 :=
  fun i => (∑ q : Fin 8, conv h mean Wl bl Wr (i 0) q * Wfc (ix2 (0 : Fin 1) q)) + bfc (ix1 (0 : Fin 1))

theorem hidden_apply (x mean : FVec Ideal ⟨2, ![100000, 32]⟩ .f32) (Wl : FVec Ideal ⟨2, ![16, 32]⟩ .f32)
    (bl : FVec Ideal ⟨1, ![16]⟩ .f32) (Wr : FVec Ideal ⟨2, ![16, 32]⟩ .f32) (r : Fin 100000) (j : Fin 16) :
    hidden x mean Wl bl Wr (ix2 r j) = max (conv x mean Wl bl Wr r j) 0 := rfl

theorem head_apply (h mean : FVec Ideal ⟨2, ![100000, 16]⟩ .f32) (Wl : FVec Ideal ⟨2, ![8, 16]⟩ .f32)
    (bl : FVec Ideal ⟨1, ![8]⟩ .f32) (Wr : FVec Ideal ⟨2, ![8, 16]⟩ .f32) (Wfc : FVec Ideal ⟨2, ![1, 8]⟩ .f32)
    (bfc : FVec Ideal ⟨1, ![1]⟩ .f32) (r : Fin 100000) (z : Fin 1) :
    head h mean Wl bl Wr Wfc bfc (ix2 r z)
      = (∑ q : Fin 8, conv h mean Wl bl Wr r q * Wfc (ix2 (0 : Fin 1) q)) + bfc (ix1 (0 : Fin 1)) := rfl

end Cert.Sage

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibTransposedDense.lean ====
/-
  A dense layer whose weight matrix is stored `[M, K]` (one row per output) and transposed on the way in.

  Over the extended reals narrowing to bf16 is the identity, a matrix unit's product into zeros and the plain
  `dot_general` are both the textbook sum over the contracted index, and a transposed `[M, K]` matrix read at `(k, c)`
  is the matrix at `(c, k)`. So `a · wᵀ` at `(r, c)` is `∑ₖ a(r,k) · w(c,k)` on the matrix unit (`matmulT_apply`) and on
  the host (`dotGeneralT_apply`) alike. A bias vector `[M]` recast as a row `[1, M]` and spread over `R` rows reads the
  vector at the column (`biasRows_apply`). Nothing here depends on the sizes.
-/
import proofs.«140144_j22299470201097_1_alg».proof.Proof.LibAffineRows
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

variable {R K M : ℕ}

/-- A `[M, K]` matrix transposed to `[K, M]`, read at `(k, c)`: the matrix at `(c, k)`. -/
theorem transposeT_apply {α : Type} (w : (⟨2, ![M, K]⟩ : Shape).Idx → α)
    (htr : (⟨2, ![M, K]⟩ : Shape).Transposes [1, 0] ⟨2, ![K, M]⟩) (k : Fin K) (c : Fin M) :
    transpose ⟨2, ![K, M]⟩ [1, 0] w htr (ix2 k c) = w (ix2 c k) :=
  transpose_apply [1, 0] w htr (ix2 k c) (ix2 c k) (fun b => by
    match b with
    | ⟨0, _⟩ => rfl
    | ⟨1, _⟩ => rfl)

/-- The matrix unit's `a · wᵀ` into zeros, both operands narrowed, at `(r, c)`. -/
theorem matmulT_apply {d : DotDims ⟨2, ![R, K]⟩ ⟨2, ![K, M]⟩ ⟨2, ![R, M]⟩} (h : PlainDot d)
    (a : FVec Ideal ⟨2, ![R, K]⟩ .f32) (w : FVec Ideal ⟨2, ![M, K]⟩ .f32) (ht : FTy.bits .bf16 < FTy.bits .f32)
    (htr : (⟨2, ![M, K]⟩ : Shape).Transposes [1, 0] ⟨2, ![K, M]⟩) (r : Fin R) (c : Fin M) :
    matmul d none (truncf .bf16 a ht) (transpose ⟨2, ![K, M]⟩ [1, 0] (truncf .bf16 w ht) htr)
        (constant ⟨2, ![R, M]⟩ .f32 0x00000000#32) (ix2 r c)
      = ∑ k : Fin K, a (ix2 r k) * w (ix2 c k) := by
  simp only [matmul]
  rw [Ideal.matmul_constant_zero_apply]
  refine (h.sum_eq (fun i => a i) (fun i => transpose ⟨2, ![K, M]⟩ [1, 0] (fun j => w j) htr i) r c).trans ?_
  refine Finset.sum_congr rfl fun k _ => ?_
  rw [transposeT_apply]

/-- The host's `x · wᵀ` at `(r, c)`. -/
theorem dotGeneralT_apply {d : DotDims ⟨2, ![R, K]⟩ ⟨2, ![K, M]⟩ ⟨2, ![R, M]⟩} (h : PlainDot d)
    (x : FVec Ideal ⟨2, ![R, K]⟩ .f32) (w : FVec Ideal ⟨2, ![M, K]⟩ .f32)
    (htr : (⟨2, ![M, K]⟩ : Shape).Transposes [1, 0] ⟨2, ![K, M]⟩) (r : Fin R) (c : Fin M) :
    Host.dotGeneral d none x (transpose ⟨2, ![K, M]⟩ [1, 0] w htr) (ix2 r c) = ∑ k : Fin K, x (ix2 r k) * w (ix2 c k) := by
  rw [dotGeneral_apply h]
  refine Finset.sum_congr rfl fun k _ => ?_
  rw [transposeT_apply]

/-- A bias vector `[M]` recast as the row `[1, M]` and spread over `R` rows, at `(r, q)`: the vector at `q`. -/
theorem biasRows_apply (b : FVec Ideal ⟨1, ![M]⟩ .f32) (hsc : (⟨1, ![M]⟩ : Shape).ShapeCasts ⟨2, ![1, M]⟩)
    (hbc : (⟨2, ![1, M]⟩ : Shape).Broadcasts ⟨2, ![R, M]⟩) (r : Fin R) (q : Fin M) :
    broadcastTo ⟨2, ![R, M]⟩ (shapeCast ⟨2, ![1, M]⟩ b hsc) hbc (ix2 r q) = b (ix1 q) := by
  rw [broadcastTo_1b_ab_apply]
  refine (shapeCast_addUnit_apply ![M] b hsc (ix2 (0 : Fin 1) q)).trans (congrArg b (funext fun a => ?_))
  match a with
  | ⟨0, _⟩ => rfl

end Cert.Lib

end
-- ==== Proof.Region0Value.lean ====
/-
  The first kernel region's result array, as one function of the arrays the region found.

  The region visits twenty grid points. Point `t` reads rows `5000 t … 5000 t + 4999` of the feature array and of the
  array of neighbourhood means, and the two weight matrices and the bias whole; it stores the `[5000, 16]` tile
  `max((meanₜ · Wlᵀ + bl) + xₜ · Wrᵀ, 0)`, which is written back as the same rows of the `[100000, 16]` result. Over the
  extended reals narrowing is the identity and each product is the textbook sum over the 32 contracted columns, so entry
  `(p, q)` of the tile is entry `(5000 t + p, q)` of the rectified layer of the whole arrays (`stored_apply`); each block
  read is a row range of its array (`feat_block` … `wr_block`); so point `t` writes back block `t` of that layer
  (`flushed_eq`), the twenty blocks fill the array (`cover`), and the array ends holding the layer (`hidden_array`).
-/
import proofs.«140144_j22299470201097_1_alg».proof.Proof.Gen.KernelIdeal.Frame
import proofs.«140144_j22299470201097_1_alg».proof.Proof.Spec
import proofs.«140144_j22299470201097_1_alg».proof.Proof.LibAffineRows
import proofs.«140144_j22299470201097_1_alg».proof.Proof.LibTransposedDense
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

/-! ## The matrix unit's dimension numbers are those of a plain product -/

theorem lhs_tile_0 (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem lhs_tile_1 (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
theorem rhs_tile_0 (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
theorem rhs_tile_1 (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- One contracted index of extent 32: the tile's column and the transposed weights' row. -/
theorem plain_tile : Cert.Lib.PlainDot dot_S5000x32_S32x16_S5000x16_1_0_0_1_n_n :=
  ⟨rfl, rfl, lhs_tile_0, lhs_tile_1, rhs_tile_0, rhs_tile_1⟩

/-! ## The body's arithmetic at one entry of the tile -/

/-- Where row `p` of the feature tile and of the mean tile is row `n p` of the whole arrays, entry `(p, q)` of what the
    body stores is entry `(n p, q)` of the rectified layer of the whole arrays. -/
theorem stored_apply (xb mb : Vec Ideal S5000x32 .f32) (wl wr : Vec Ideal S16x32 .f32) (bl : Vec Ideal S16 .f32)
    (X Mn : FVec Ideal S100000x32 .f32) (n : Fin 5000 → Fin 100000)
    (hx : ∀ (p : Fin 5000) (k : Fin 32), xb (ix2 p k) = X (ix2 (n p) k))
    (hm : ∀ (p : Fin 5000) (k : Fin 32), mb (ix2 p k) = Mn (ix2 (n p) k)) (p : Fin 5000) (q : Fin 16) :
    k0_pay1 (F := Ideal) xb mb wl wr bl (ix2 p q) = Cert.Sage.hidden X Mn wl bl wr (ix2 (n p) q) := by
  have hmean : matmul dot_S5000x32_S32x16_S5000x16_1_0_0_1_n_n none
        (truncf .bf16 (shapeCast S5000x32 mb shapeCasts_S5000x32_S5000x32) bitsLt_bf16_f32)
        (transpose S32x16 [1, 0] (truncf .bf16 wl bitsLt_bf16_f32) transposes_S16x32_p1_0_S32x16)
        (constant S5000x16 .f32 0x00000000#32) (ix2 p q) = ∑ k : Fin 32, Mn (ix2 (n p) k) * wl (ix2 q k) := by
    refine (Cert.Lib.matmulT_apply plain_tile (shapeCast S5000x32 mb shapeCasts_S5000x32_S5000x32) wl bitsLt_bf16_f32
      transposes_S16x32_p1_0_S32x16 p q).trans ?_
    refine Finset.sum_congr rfl fun k _ => ?_
    rw [shapeCast_self, hm]
  have hfeat : matmul dot_S5000x32_S32x16_S5000x16_1_0_0_1_n_n none (truncf .bf16 xb bitsLt_bf16_f32)
        (transpose S32x16 [1, 0] (truncf .bf16 wr bitsLt_bf16_f32) transposes_S16x32_p1_0_S32x16)
        (constant S5000x16 .f32 0x00000000#32) (ix2 p q) = ∑ k : Fin 32, X (ix2 (n p) k) * wr (ix2 q k) := by
    refine (Cert.Lib.matmulT_apply plain_tile xb wr bitsLt_bf16_f32 transposes_S16x32_p1_0_S32x16 p q).trans ?_
    exact Finset.sum_congr rfl fun k _ => by rw [hx]
  have hbias : broadcastTo S5000x16 (shapeCast S1x16 bl shapeCasts_S16_S1x16) broadcasts_S1x16_S5000x16 (ix2 p q)
      = bl (ix1 q) := Cert.Lib.biasRows_apply bl shapeCasts_S16_S1x16 broadcasts_S1x16_S5000x16 p q
  unfold k0_pay1
  rw [maximumf_apply, addf_apply, addf_apply, broadcast_apply, hmean, hfeat, hbias]
  show max _ (Ideal.ofBits .f32 0x00000000#32) = max (Cert.Sage.conv X Mn wl bl wr (n p) q) 0
  rw [Ideal.ofBits_zero_f32]
  rfl

/-! ## Each window's block as rows of its array -/

/-- The printed index maps, decided over the 20 grid points: the two row-tiled operands and the result move one block of
    rows per point, the weights and the bias stay at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0
    ∧ t.val < 20 :=
  (by decide +kernel : ∀ t : Fin grid0.N, _)

/-- Row `p` of the block of point `t` is row `5000 t + p` of the array. -/
def row (t : Fin cfg0.N) (p : Fin 5000) : Fin 100000 :=
  ⟨t.val * 5000 + p.val, by have h := (index_facts t).2.2.2.2.2.2.2.2.2.2.2; have := p.isLt; omega⟩

theorem row_val (t : Fin cfg0.N) (p : Fin 5000) : (row t p).val = t.val * 5000 + p.val := rfl

variable (V : (c : Dev nD) → (b : Ref sig .tc) → Buf (Elt Ideal) ((c : Thread nD τ).loc b)) (c : Dev nD)

/-- The feature block of point `t` is rows `5000 t …` of the feature array. -/
theorem feat_block (t : Fin cfg0.N) (p : Fin 5000) (k : Fin 32) :
    (iblk0 V c 0 t : Vec Ideal S5000x32 .f32) (ix2 p k) = (V c main_arg0 : FVec Ideal S100000x32 .f32) (ix2 (row t p) k) := by
  obtain ⟨e0, e1, -⟩ := index_facts t
  show V c main_arg0 (((cfg0.win 0).blk t).view.emb (ix2 p k)) = V c main_arg0 (ix2 (row t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 32 + 1 * k.val = k.val; omega

/-- The mean block of point `t` is rows `5000 t …` of the array of means. -/
theorem mean_block (t : Fin cfg0.N) (p : Fin 5000) (k : Fin 32) :
    (iblk0 V c 1 t : Vec Ideal S5000x32 .f32) (ix2 p k) = (V c main_v24 : FVec Ideal S100000x32 .f32) (ix2 (row t p) k) := by
  obtain ⟨-, -, e0, e1, -⟩ := index_facts t
  show V c main_v24 (((cfg0.win 1).blk t).view.emb (ix2 p k)) = V c main_v24 (ix2 (row t p) k)
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 32 + 1 * k.val = k.val; omega

/-- The first weight matrix is loaded whole at every point. -/
theorem wl_block (t : Fin cfg0.N) : (iblk0 V c 2 t : Vec Ideal S16x32 .f32) = V c main_arg2 := by
  obtain ⟨-, -, -, -, e0, e1, -⟩ := index_facts t
  funext y
  show V c main_arg2 (((cfg0.win 2).blk t).view.emb y) = V c main_arg2 y
  refine congrArg _ (funext fun a => Fin.ext ?_)
  match a with
  | ⟨0, _⟩ => show win0_2.index t (0 : Fin 2) * 16 + 1 * (y 0).val = (y 0).val; omega
  | ⟨1, _⟩ => show win0_2.index t (1 : Fin 2) * 32 + 1 * (y 1).val = (y 1).val; omega

/-- The bias vector is loaded whole at every point. -/
theorem bl_block (t : Fin cfg0.N) : (iblk0 V c 3 t : Vec Ideal S16 .f32) = V c main_arg3 := by
  obtain ⟨-, -, -, -, -, -, e0, -⟩ := index_facts t
  funext y
  show V c main_arg3 (((cfg0.win 3).blk t).view.emb y) = V c main_arg3 y
  refine congrArg _ (funext fun a => Fin.ext ?_)
  match a with
  | ⟨0, _⟩ => show win0_3.index t (0 : Fin 1) * 16 + 1 * (y 0).val = (y 0).val; omega

/-- The second weight matrix is loaded whole at every point. -/
theorem wr_block (t : Fin cfg0.N) : (iblk0 V c 4 t : Vec Ideal S16x32 .f32) = V c main_arg4 := by
  obtain ⟨-, -, -, -, -, -, -, e0, e1, -⟩ := index_facts t
  funext y
  show V c main_arg4 (((cfg0.win 4).blk t).view.emb y) = V c main_arg4 y
  refine congrArg _ (funext fun a => Fin.ext ?_)
  match a with
  | ⟨0, _⟩ => show win0_4.index t (0 : Fin 2) * 16 + 1 * (y 0).val = (y 0).val; omega
  | ⟨1, _⟩ => show win0_4.index t (1 : Fin 2) * 32 + 1 * (y 1).val = (y 1).val; omega

/-! ## What a point writes back, and the array after all twenty -/

theorem hz : (![0, 0] : Fin 2 → Nat) = fun _ => 0 := funext fun a => by fin_cases a <;> rfl
theorem hz1 : (![0] : Fin 1 → Nat) = fun _ => 0 := funext fun a => by fin_cases a <;> rfl

/-- Point `t` writes back block `t` of the rectified layer of the arrays the region found. -/
theorem flushed_eq (t : Fin cfg0.N) :
    (dat0 (F := Ideal) V c).flushed 5 t = ((cfg0.win 5).blk t).view.read (Elt Ideal)
      (Cert.Sage.hidden (V c main_arg0) (V c main_v24) (V c main_arg2) (V c main_arg3) (V c main_arg4)) := by
  show (cfg0.win 5).cut (grid0.coords t) ((dat0 V c).after 5 t) = _
  rw [after0_5]
  unfold out0_5
  rw [View.canon_unit_zero hz]
  simp only [View.ld_unit_zero (S := S5000x32) hz, View.ld_unit_zero (S := S16x32) hz, View.ld_unit_zero (S := S16) hz1]
  rw [wl_block V c t, bl_block V c t, wr_block V c t]
  obtain ⟨-, -, -, -, -, -, -, -, -, e0, e1, -⟩ := index_facts t
  funext j
  obtain ⟨p, q, rfl⟩ : ∃ (p : Fin 5000) (q : Fin 16), j = ix2 p q := ⟨j 0, j 1, eq_ix2 j⟩
  refine (stored_apply (iblk0 V c 0 t) (iblk0 V c 1 t) (V c main_arg2) (V c main_arg4) (V c main_arg3)
    (V c main_arg0) (V c main_v24) (row t) (feat_block V c t) (mean_block V c t) p q).trans ?_
  show Cert.Sage.hidden (V c main_arg0) (V c main_v24) (V c main_arg2) (V c main_arg3) (V c main_arg4) (ix2 (row t p) q)
    = Cert.Sage.hidden (V c main_arg0) (V c main_v24) (V c main_arg2) (V c main_arg3) (V c main_arg4)
        (((cfg0.win 5).blk t).view.emb (ix2 p q))
  refine congrArg _ (funext fun a => Fin.ext ?_)
  match a with
  | ⟨0, _⟩ => show t.val * 5000 + p.val = win0_5.index t (0 : Fin 2) * 5000 + 1 * p.val; omega
  | ⟨1, _⟩ => show q.val = win0_5.index t (1 : Fin 2) * 16 + 1 * q.val; omega

/-- An index of the array is in point `t`'s block iff each coordinate is in the block's range on its axis. -/
theorem mem_blk (t : Fin cfg0.N) (i : S100000x16.Idx) :
    i ∈ ((cfg0.win 5).blk t).view.set ↔ ∀ a : Fin 2, win0_5.index t a * S5000x16.size a ≤ (i a).val
      ∧ (i a).val < win0_5.index t a * S5000x16.size a + S5000x16.size a := by
  show i ∈ ((View.whole main_v25).slice (win0_5.rect t)).set ↔ _
  rw [View.set_slice_whole, Rect.mem_set_unit]
  exact Iff.rfl

/-- Row `r` of the array lies in the block of point `r / 5000`, which writes back: the twenty blocks fill the array. -/
theorem cover (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, e0, e1, -⟩ := index_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 16 ≤ (i 1).val ∧ (i 1).val < win0_5.index t (1 : Fin 2) * 16 + 16; omega

/-- After the first kernel region the `[100000, 16]` array holds the rectified first layer of the arrays the region found. -/
theorem hidden_array (V : (c : Dev nD) → (b : Ref sig .tc) → Buf (Elt Ideal) ((c : Thread nD τ).loc b)) (c : Dev nD) :
    (dat0 (F := Ideal) V c).arrAt 5 cfg0.N
      = Cert.Sage.hidden (V c main_arg0) (V c main_v24) (V c main_arg2) (V c main_arg3) (V c main_arg4) :=
  (dat0 (F := Ideal) V c).arrAt_eq_of_cover 5
    (Cert.Sage.hidden (V c main_arg0) (V c main_v24) (V c main_arg2) (V c main_arg3) (V c main_arg4))
    (fun t _ => flushed_eq V c t) cover

end Cert.KernelIdeal.Region0

end
-- ==== Proof.Region1Value.lean ====
/-
  The second kernel region's result array, at the ideal values.

  The region walks 20 points; point `t` reads rows `5000 t … 5000 t + 4999` of the features and of the neighbour means
  and the whole of the weights, and writes rows `5000 t …` of a `[100000, 1]` array. Over the extended reals narrowing
  is the identity and each matrix-unit product into zeros is the textbook sum, so the value stored at row `p` of a block
  is `(means · Wlᵀ + bl + features · Wrᵀ) · Wfcᵀ + bfc` at row `5000 t + p` of the whole arrays (`pay_apply`): what
  point `t` writes back is block `t` of `Cert.Sage.head` (`flushed_eq`). Row `r` lies in the block of point
  `r / 5000` (`cover`), so after the last point the array is `Cert.Sage.head` of the arrays the region found
  (`head_array`).
-/
import proofs.«140144_j22299470201097_1_alg».proof.Proof.Gen.KernelIdeal.Frame
import proofs.«140144_j22299470201097_1_alg».proof.Proof.Spec
import proofs.«140144_j22299470201097_1_alg».proof.Proof.LibAffineRows
import proofs.«140144_j22299470201097_1_alg».proof.Proof.LibTransposedDense
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen

/-! ## The two matrix products of the body are plain products -/

/-- In the `[5000, 16] · [16, 8]` product the left operand's row is the result's row, -/
theorem lhs_wide_0 (i : S5000x8.Idx) (q : dot_S5000x16_S16x8_S5000x8_1_0_0_1_n_n.contr.Idx) :
    (dot_S5000x16_S16x8_S5000x8_1_0_0_1_n_n.lhsIdx i q 0).val = (i 0).val := by
  unfold DotDims.lhsIdx
  rw [dif_neg (show ¬(0 : Fin S5000x16.rank) ∈ dot_S5000x16_S16x8_S5000x8_1_0_0_1_n_n.lhsBatch by decide), dif_pos (show (0 : Fin S5000x16.rank) ∈ dot_S5000x16_S16x8_S5000x8_1_0_0_1_n_n.lhsNonContracting by decide)]
  rfl
/-- its column the contracted index, -/
theorem lhs_wide_1 (i : S5000x8.Idx) (q : dot_S5000x16_S16x8_S5000x8_1_0_0_1_n_n.contr.Idx) :
    (dot_S5000x16_S16x8_S5000x8_1_0_0_1_n_n.lhsIdx i q 1).val = (q ⟨0, by decide⟩).val :=
  dot_S5000x16_S16x8_S5000x8_1_0_0_1_n_n.lhsIdx_val_of_single rfl i q
/-- the right operand's row the contracted index, -/
theorem rhs_wide_0 (i : S5000x8.Idx) (q : dot_S5000x16_S16x8_S5000x8_1_0_0_1_n_n.contr.Idx) :
    (dot_S5000x16_S16x8_S5000x8_1_0_0_1_n_n.rhsIdx i q 0).val = (q ⟨0, by decide⟩).val :=
  dot_S5000x16_S16x8_S5000x8_1_0_0_1_n_n.rhsIdx_val_of_single rfl i q
/-- and its column the result's column. -/
theorem rhs_wide_1 (i : S5000x8.Idx) (q : dot_S5000x16_S16x8_S5000x8_1_0_0_1_n_n.contr.Idx) :
    (dot_S5000x16_S16x8_S5000x8_1_0_0_1_n_n.rhsIdx i q 1).val = (i 1).val := by
  unfold DotDims.rhsIdx
  rw [dif_neg (show ¬(1 : Fin S16x8.rank) ∈ dot_S5000x16_S16x8_S5000x8_1_0_0_1_n_n.rhsBatch by decide), dif_pos (show (1 : Fin S16x8.rank) ∈ dot_S5000x16_S16x8_S5000x8_1_0_0_1_n_n.rhsNonContracting by decide)]
  rfl

/-- The `[5000, 16] · [16, 8]` product contracts the left operand's columns against the right operand's rows. -/
theorem plain_wide : Cert.Lib.PlainDot dot_S5000x16_S16x8_S5000x8_1_0_0_1_n_n :=
  ⟨rfl, rfl, lhs_wide_0, lhs_wide_1, rhs_wide_0, rhs_wide_1⟩

/-- In the `[5000, 8] · [8, 1]` product the left operand's row is the result's row, -/
theorem lhs_head_0 (i : S5000x1.Idx) (q : dot_S5000x8_S8x1_S5000x1_1_0_0_1_n_n.contr.Idx) :
    (dot_S5000x8_S8x1_S5000x1_1_0_0_1_n_n.lhsIdx i q 0).val = (i 0).val := by
  unfold DotDims.lhsIdx
  rw [dif_neg (show ¬(0 : Fin S5000x8.rank) ∈ dot_S5000x8_S8x1_S5000x1_1_0_0_1_n_n.lhsBatch by decide), dif_pos (show (0 : Fin S5000x8.rank) ∈ dot_S5000x8_S8x1_S5000x1_1_0_0_1_n_n.lhsNonContracting by decide)]
  rfl
/-- its column the contracted index, -/
theorem lhs_head_1 (i : S5000x1.Idx) (q : dot_S5000x8_S8x1_S5000x1_1_0_0_1_n_n.contr.Idx) :
    (dot_S5000x8_S8x1_S5000x1_1_0_0_1_n_n.lhsIdx i q 1).val = (q ⟨0, by decide⟩).val :=
  dot_S5000x8_S8x1_S5000x1_1_0_0_1_n_n.lhsIdx_val_of_single rfl i q
/-- the right operand's row the contracted index, -/
theorem rhs_head_0 (i : S5000x1.Idx) (q : dot_S5000x8_S8x1_S5000x1_1_0_0_1_n_n.contr.Idx) :
    (dot_S5000x8_S8x1_S5000x1_1_0_0_1_n_n.rhsIdx i q 0).val = (q ⟨0, by decide⟩).val :=
  dot_S5000x8_S8x1_S5000x1_1_0_0_1_n_n.rhsIdx_val_of_single rfl i q
/-- and its column the result's column. -/
theorem rhs_head_1 (i : S5000x1.Idx) (q : dot_S5000x8_S8x1_S5000x1_1_0_0_1_n_n.contr.Idx) :
    (dot_S5000x8_S8x1_S5000x1_1_0_0_1_n_n.rhsIdx i q 1).val = (i 1).val := by
  unfold DotDims.rhsIdx
  rw [dif_neg (show ¬(1 : Fin S8x1.rank) ∈ dot_S5000x8_S8x1_S5000x1_1_0_0_1_n_n.rhsBatch by decide), dif_pos (show (1 : Fin S8x1.rank) ∈ dot_S5000x8_S8x1_S5000x1_1_0_0_1_n_n.rhsNonContracting by decide)]
  rfl

/-- The `[5000, 8] · [8, 1]` product contracts the left operand's columns against the right operand's rows. -/
theorem plain_head : Cert.Lib.PlainDot dot_S5000x8_S8x1_S5000x1_1_0_0_1_n_n :=
  ⟨rfl, rfl, lhs_head_0, lhs_head_1, rhs_head_0, rhs_head_1⟩

/-! ## The body's arithmetic at an index -/

/-- The second layer's `[5000, 8]` value of a block, before the head: `mb · wlᵀ + bl + xb · wrᵀ`. -/
def layer (xb mb : Vec Ideal S5000x16 .f32) (wl wr : Vec Ideal S8x16 .f32) (bl : Vec Ideal S8 .f32) : FVec Ideal S5000x8 .f32 :=
  addf
    (addf
      (matmul dot_S5000x16_S16x8_S5000x8_1_0_0_1_n_n none
        (truncf .bf16 (shapeCast S5000x16 mb shapeCasts_S5000x16_S5000x16) bitsLt_bf16_f32)
        (transpose S16x8 [1, 0] (truncf .bf16 wl bitsLt_bf16_f32) transposes_S8x16_p1_0_S16x8)
        (constant S5000x8 .f32 0x00000000#32))
      (broadcastTo S5000x8 (shapeCast S1x8 bl shapeCasts_S8_S1x8) broadcasts_S1x8_S5000x8))
    (matmul dot_S5000x16_S16x8_S5000x8_1_0_0_1_n_n none
      (truncf .bf16 (shapeCast S5000x16 xb shapeCasts_S5000x16_S5000x16) bitsLt_bf16_f32)
      (transpose S16x8 [1, 0] (truncf .bf16 wr bitsLt_bf16_f32) transposes_S8x16_p1_0_S16x8)
      (constant S5000x8 .f32 0x00000000#32))

/-- Where row `p` of the two blocks is row `n p` of the whole arrays, the block's second-layer value at `(p, q)` is
    `conv` of the whole arrays at `(n p, q)`. -/
theorem layer_apply (xb mb : Vec Ideal S5000x16 .f32) (wl wr : Vec Ideal S8x16 .f32) (bl : Vec Ideal S8 .f32)
    (X Mn : FVec Ideal S100000x16 .f32) (n : Fin 5000 → Fin 100000)
    (hx : ∀ p k, xb (ix2 p k) = X (ix2 (n p) k)) (hm : ∀ p k, mb (ix2 p k) = Mn (ix2 (n p) k))
    (p : Fin 5000) (q : Fin 8) :
    layer xb mb wl wr bl (ix2 p q) = Cert.Sage.conv X Mn wl bl wr (n p) q := by
  unfold layer
  rw [shapeCast_self, shapeCast_self]
  refine (congrArg₂ (· + ·) (congrArg₂ (· + ·)
      (Cert.Lib.matmulT_apply plain_wide mb wl bitsLt_bf16_f32 transposes_S8x16_p1_0_S16x8 p q)
      (Cert.Lib.biasRows_apply bl shapeCasts_S8_S1x8 broadcasts_S1x8_S5000x8 p q))
    (Cert.Lib.matmulT_apply plain_wide xb wr bitsLt_bf16_f32 transposes_S8x16_p1_0_S16x8 p q)).trans ?_
  unfold Cert.Sage.conv
  simp only [hx, hm]

/-- THE PAYLOAD AT AN INDEX: where row `p` of the two blocks is row `n p` of the whole arrays, the value the body
    stores at `(p, z)` is `head` of the whole arrays at `(n p, z)`. -/
theorem pay_apply (xb mb : Vec Ideal S5000x16 .f32) (wl wr : Vec Ideal S8x16 .f32) (bl : Vec Ideal S8 .f32)
    (wfc : Vec Ideal S1x8 .f32) (bfc : Vec Ideal S1 .f32)
    (X Mn : FVec Ideal S100000x16 .f32) (n : Fin 5000 → Fin 100000)
    (hx : ∀ p k, xb (ix2 p k) = X (ix2 (n p) k)) (hm : ∀ p k, mb (ix2 p k) = Mn (ix2 (n p) k))
    (p : Fin 5000) (z : Fin 1) :
    k1_pay1 (F := Ideal) xb mb wl wr bl wfc bfc (ix2 p z) = Cert.Sage.head X Mn wl bl wr wfc bfc (ix2 (n p) z) := by
  rw [Cert.Sage.head_apply]
  show matmul dot_S5000x8_S8x1_S5000x1_1_0_0_1_n_n none (truncf .bf16 (layer xb mb wl wr bl) bitsLt_bf16_f32)
        (transpose S8x1 [1, 0] (truncf .bf16 wfc bitsLt_bf16_f32) transposes_S1x8_p1_0_S8x1)
        (constant S5000x1 .f32 0x00000000#32) (ix2 p z)
      + broadcastTo S5000x1 (shapeCast S1x1 bfc shapeCasts_S1_S1x1) broadcasts_S1x1_S5000x1 (ix2 p z) = _
  refine (congrArg₂ (· + ·)
    (Cert.Lib.matmulT_apply plain_head (layer xb mb wl wr bl) wfc bitsLt_bf16_f32 transposes_S1x8_p1_0_S8x1 p z)
    (Cert.Lib.biasRows_apply bfc shapeCasts_S1_S1x1 broadcasts_S1x1_S5000x1 p z)).trans ?_
  obtain rfl : z = 0 := Subsingleton.elim z 0
  simp only [layer_apply xb mb wl wr bl X Mn n hx hm]

/-! ## From blocks to the array -/

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the grid's 20 points: the two row-tiled operands and the result move down
    one block of rows per point; the weights stay at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row `p` of point `t`'s blocks is row `5000 t + p` of the arrays. -/
def row (t : Fin cfg1.N) (p : Fin 5000) : Fin 100000 :=
  ⟨t.val * 5000 + p.val, by have h : t.val < 20 := lt_of_lt_of_eq t.isLt N_1; have := p.isLt; omega⟩

section Blocks
variable (V : (c : Dev nD) → (b : Ref sig .tc) → Buf (Elt Ideal) ((c : Thread nD τ).loc b)) (c : Dev nD)

/-- The features' block at point `t` is rows `5000 t …` of the features. -/
theorem feat_block (t : Fin cfg1.N) (p : Fin 5000) (k : Fin 16) :
    (iblk1 V c 0 t : Vec Ideal S5000x16 .f32) (ix2 p k) = (V c main_v25 : S100000x16.Idx → EReal) (ix2 (row t p) k) := by
  obtain ⟨e0, e1, -⟩ := idx_facts t
  show V c main_v25 (((cfg1.win 0).blk t).view.emb (ix2 p k)) = V c main_v25 (ix2 (row t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 16 + 1 * k.val = k.val; omega

/-- The means' block at point `t` is rows `5000 t …` of the means. -/
theorem mean_block (t : Fin cfg1.N) (p : Fin 5000) (k : Fin 16) :
    (iblk1 V c 1 t : Vec Ideal S5000x16 .f32) (ix2 p k) = (V c main_v37 : S100000x16.Idx → EReal) (ix2 (row t p) k) := by
  obtain ⟨-, -, e0, e1, -⟩ := idx_facts t
  show V c main_v37 (((cfg1.win 1).blk t).view.emb (ix2 p k)) = V c main_v37 (ix2 (row t p) k)
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 16 + 1 * k.val = k.val; omega

/-- Each weight's one block is the whole weight. -/
theorem wl_block (t : Fin cfg1.N) : (iblk1 V c 2 t : Vec Ideal S8x16 .f32) = V c main_arg5 := by
  obtain ⟨-, -, -, -, e0, e1, -⟩ := idx_facts t
  funext j
  show V c main_arg5 (((cfg1.win 2).blk t).view.emb j) = V c main_arg5 j
  refine congrArg _ (funext fun a => Fin.ext ?_)
  match a with
  | ⟨0, _⟩ => show win1_2.index t (0 : Fin 2) * 8 + 1 * (j 0).val = (j 0).val; omega
  | ⟨1, _⟩ => show win1_2.index t (1 : Fin 2) * 16 + 1 * (j 1).val = (j 1).val; omega
theorem bl_block (t : Fin cfg1.N) : (iblk1 V c 3 t : Vec Ideal S8 .f32) = V c main_arg6 := by
  obtain ⟨-, -, -, -, -, -, e0, -⟩ := idx_facts t
  funext j
  show V c main_arg6 (((cfg1.win 3).blk t).view.emb j) = V c main_arg6 j
  refine congrArg _ (funext fun a => Fin.ext ?_)
  match a with
  | ⟨0, _⟩ => show win1_3.index t (0 : Fin 1) * 8 + 1 * (j 0).val = (j 0).val; omega
theorem wr_block (t : Fin cfg1.N) : (iblk1 V c 4 t : Vec Ideal S8x16 .f32) = V c main_arg7 := by
  obtain ⟨-, -, -, -, -, -, -, e0, e1, -⟩ := idx_facts t
  funext j
  show V c main_arg7 (((cfg1.win 4).blk t).view.emb j) = V c main_arg7 j
  refine congrArg _ (funext fun a => Fin.ext ?_)
  match a with
  | ⟨0, _⟩ => show win1_4.index t (0 : Fin 2) * 8 + 1 * (j 0).val = (j 0).val; omega
  | ⟨1, _⟩ => show win1_4.index t (1 : Fin 2) * 16 + 1 * (j 1).val = (j 1).val; omega
theorem wfc_block (t : Fin cfg1.N) : (iblk1 V c 5 t : Vec Ideal S1x8 .f32) = V c main_arg8 := by
  obtain ⟨-, -, -, -, -, -, -, -, -, e0, e1, -⟩ := idx_facts t
  funext j
  show V c main_arg8 (((cfg1.win 5).blk t).view.emb j) = V c main_arg8 j
  refine congrArg _ (funext fun a => Fin.ext ?_)
  match a with
  | ⟨0, _⟩ => show win1_5.index t (0 : Fin 2) * 1 + 1 * (j 0).val = (j 0).val; omega
  | ⟨1, _⟩ => show win1_5.index t (1 : Fin 2) * 8 + 1 * (j 1).val = (j 1).val; omega
theorem bfc_block (t : Fin cfg1.N) : (iblk1 V c 6 t : Vec Ideal S1 .f32) = V c main_arg9 := by
  obtain ⟨-, -, -, -, -, -, -, -, -, -, -, e0, -⟩ := idx_facts t
  funext j
  show V c main_arg9 (((cfg1.win 6).blk t).view.emb j) = V c main_arg9 j
  refine congrArg _ (funext fun a => Fin.ext ?_)
  match a with
  | ⟨0, _⟩ => show win1_6.index t (0 : Fin 1) * 1 + 1 * (j 0).val = (j 0).val; omega

/-- The result's block at point `t` sits at rows `5000 t …` of the result. -/
theorem out_emb (t : Fin cfg1.N) (p : Fin 5000) (z : Fin 1) :
    ((cfg1.win 7).blk t).view.emb (ix2 p z) = (ix2 (row t p) z : S100000x1.Idx) := by
  obtain ⟨-, -, -, -, -, -, -, -, -, -, -, -, e0, e1⟩ := idx_facts t
  refine funext fun a => Fin.ext ?_
  match a with
  | ⟨0, _⟩ => show win1_7.index t (0 : Fin 2) * 5000 + 1 * p.val = t.val * 5000 + p.val; omega
  | ⟨1, _⟩ => show win1_7.index t (1 : Fin 2) * 1 + 1 * z.val = z.val; omega

/-- WHAT POINT `t` WRITES BACK is block `t` of `head` of the arrays the region found. -/
theorem flushed_eq (t : Fin cfg1.N) :
    (dat1 (F := Ideal) V c).flushed 7 t = ((cfg1.win 7).blk t).view.read (Elt Ideal)
      (Cert.Sage.head (V c main_v25) (V c main_v37) (V c main_arg5) (V c main_arg6) (V c main_arg7) (V c main_arg8) (V c main_arg9)) := by
  show (cfg1.win 7).cut (grid1.coords t) ((dat1 V c).after 7 t) = _
  rw [after1_7]
  unfold out1_7
  rw [View.canon_unit_zero zero2]
  simp only [View.ld_unit_zero (S := S5000x16) zero2, View.ld_unit_zero (S := S8x16) zero2, View.ld_unit_zero (S := S8) zero1,
    View.ld_unit_zero (S := S1x8) zero2, View.ld_unit_zero (S := S1) zero1]
  rw [wl_block, bl_block, wr_block, wfc_block, bfc_block]
  funext j
  obtain ⟨p, z, rfl⟩ : ∃ (p : Fin 5000) (z : Fin 1), j = ix2 p z := ⟨j 0, j 1, eq_ix2 j⟩
  show k1_pay1 (F := Ideal) (iblk1 V c 0 t) (iblk1 V c 1 t) (V c main_arg5) (V c main_arg7) (V c main_arg6) (V c main_arg8) (V c main_arg9) (ix2 p z)
    = Cert.Sage.head (V c main_v25) (V c main_v37) (V c main_arg5) (V c main_arg6) (V c main_arg7) (V c main_arg8) (V c main_arg9)
        (((cfg1.win 7).blk t).view.emb (ix2 p z))
  rw [out_emb]
  exact pay_apply (iblk1 V c 0 t) (iblk1 V c 1 t) (V c main_arg5) (V c main_arg7) (V c main_arg6) (V c main_arg8) (V c main_arg9)
    (V c main_v25) (V c main_v37) (row t) (feat_block V c t) (mean_block V c t) p z

end Blocks

/-- An index of the result is in point `t`'s block iff each coordinate is in the block's range on its axis. -/
theorem mem_blk (t : Fin cfg1.N) (i : S100000x1.Idx) :
    i ∈ ((cfg1.win 7).blk t).view.set ↔ ∀ a : Fin 2, win1_7.index t a * S5000x1.size a ≤ (i a).val ∧ (i a).val < win1_7.index t a * S5000x1.size a + S5000x1.size a := by
  show i ∈ ((View.whole main_v38).slice (win1_7.rect t)).set ↔ _
  rw [View.set_slice_whole, Rect.mem_set_unit]
  exact Iff.rfl

/-- THE COVER: row `r` of the result lies in the block of point `r / 5000`, which is written back. -/
theorem cover (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 20 := N_1
  refine ⟨⟨(i 0).val / 5000, by rw [hN]; omega⟩, flush1_7 _, ?_⟩
  obtain ⟨-, -, -, -, -, -, -, -, -, -, -, -, e0, e1⟩ := idx_facts ⟨(i 0).val / 5000, by rw [hN]; omega⟩
  rw [mem_blk]
  intro a
  match a with
  | ⟨0, _⟩ =>
    show win1_7.index ⟨(i 0).val / 5000, _⟩ (0 : Fin 2) * 5000 ≤ (i 0).val ∧ (i 0).val < win1_7.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, _⟩ (1 : Fin 2) * 1 ≤ (i 1).val ∧ (i 1).val < win1_7.index ⟨(i 0).val / 5000, _⟩ (1 : Fin 2) * 1 + 1
    rw [e1]; omega

/-- After the second kernel region the `[100000, 1]` array holds the second layer and head of the arrays the region found. -/
theorem head_array (V : (c : Dev nD) → (b : Ref sig .tc) → Buf (Elt Ideal) ((c : Thread nD τ).loc b)) (c : Dev nD) :
    (dat1 (F := Ideal) V c).arrAt 7 cfg1.N
      = Cert.Sage.head (V c main_v25) (V c main_v37) (V c main_arg5) (V c main_arg6) (V c main_arg7) (V c main_arg8) (V c main_arg9) :=
  (dat1 (F := Ideal) V c).arrAt_eq_of_cover 7
    (Cert.Sage.head (V c main_v25) (V c main_v37) (V c main_arg5) (V c main_arg6) (V c main_arg7) (V c main_arg8) (V c main_arg9))
    (fun t _ => flushed_eq V c t) cover

end Cert.KernelIdeal.Region1

end
-- ==== Proof.RefValue.lean ====
/- The plain two-layer mean-aggregating network, read at an index. Each dense stage of the plain program
   (transpose, contraction, row-repeated bias, sum) is evaluated at a pair of coordinates: the first layer before
   rectification at row `r`, channel `j` is (∑ₖ mean(r,k)·Wl(j,k) + bl(j)) + ∑ₖ x(r,k)·Wr(j,k), its maximum with zero is
   `hidden`; the second layer has the same form over the hidden features and their means, and the result is its row
   against the single row of the head's weights plus the head's bias, which is `head`. The neighbourhood means of
   both layers stay unopened. -/
import proofs.«140144_j22299470201097_1_alg».proof.Proof.Gen.ReferenceIdeal.Read
import proofs.«140144_j22299470201097_1_alg».proof.Proof.Spec
import proofs.«140144_j22299470201097_1_alg».proof.Proof.LibAffineRows
import proofs.«140144_j22299470201097_1_alg».proof.Proof.LibTransposedDense
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Read

/-! ### First layer: the stages' index maps at a pair of coordinates -/

theorem lidx24 (r : Fin 100000) (j : Fin 16) (k : Fin 32) : lidx_main_v24 (ix2 r j) k = ix2 r k :=
  funext fun a => Fin.ext (by match a with | ⟨0, _⟩ => rfl | ⟨1, _⟩ => rfl)

theorem ridx24 (r : Fin 100000) (j : Fin 16) (k : Fin 32) :
    idx_main_v23 (ridx_main_v24 (ix2 r j) k) = ix2 j k :=
  funext fun a => Fin.ext (by match a with | ⟨0, _⟩ => rfl | ⟨1, _⟩ => rfl)

theorem bidx26 (r : Fin 100000) (j : Fin 16) : idx_main_v25 (idx_main_v26 (ix2 r j)) = ix1 j :=
  funext fun a => Fin.ext (by match a with | ⟨0, _⟩ => rfl)

theorem lidx29 (r : Fin 100000) (j : Fin 16) (k : Fin 32) : lidx_main_v29 (ix2 r j) k = ix2 r k :=
  funext fun a => Fin.ext (by match a with | ⟨0, _⟩ => rfl | ⟨1, _⟩ => rfl)

theorem ridx29 (r : Fin 100000) (j : Fin 16) (k : Fin 32) :
    idx_main_v28 (ridx_main_v29 (ix2 r j) k) = ix2 j k :=
  funext fun a => Fin.ext (by match a with | ⟨0, _⟩ => rfl | ⟨1, _⟩ => rfl)

/-- The means' product with the transposed left weights, at row `r` and channel `j`. -/
theorem v24_at (x0 : FVec Ideal S100000x32 .f32) (x1 : (⟨S2x1600000, .i32⟩ : BufTy).Contents (Elt Ideal))
    (x2 : FVec Ideal S16x32 .f32) (r : Fin 100000) (j : Fin 16) :
    val_main_v24 (F := Ideal) x0 x1 x2 (ix2 r j)
      = ∑ k : Fin 32, val_main_v22 (F := Ideal) x0 x1 (ix2 r k) * x2 (ix2 j k) := by
  rw [val_main_v24_apply]
  exact Finset.sum_congr rfl fun k _ => by rw [lidx24, val_main_v23_apply, ridx24]

/-- The bias, repeated along the rows. -/
theorem v26_at (x3 : FVec Ideal S16 .f32) (r : Fin 100000) (j : Fin 16) :
    val_main_v26 (F := Ideal) x3 (ix2 r j) = x3 (ix1 j) := by
  rw [val_main_v26_apply, val_main_v25_apply, bidx26]

/-- The features' product with the transposed right weights. -/
theorem v29_at (x0 : FVec Ideal S100000x32 .f32) (x4 : FVec Ideal S16x32 .f32) (r : Fin 100000) (j : Fin 16) :
    val_main_v29 (F := Ideal) x0 x4 (ix2 r j) = ∑ k : Fin 32, x0 (ix2 r k) * x4 (ix2 j k) := by
  rw [val_main_v29_apply]
  exact Finset.sum_congr rfl fun k _ => by rw [lidx29, val_main_v28_apply, ridx29]

/-- The first layer before rectification, at row `r` and channel `j`. -/
theorem pre_hidden (x0 : FVec Ideal S100000x32 .f32) (x1 : (⟨S2x1600000, .i32⟩ : BufTy).Contents (Elt Ideal))
    (x2 : FVec Ideal S16x32 .f32) (x3 : FVec Ideal S16 .f32) (x4 : FVec Ideal S16x32 .f32)
    (r : Fin 100000) (j : Fin 16) :
    val_main_v30 (F := Ideal) x0 x1 x2 x3 x4 (ix2 r j)
      = Cert.Sage.conv x0 (val_main_v22 (F := Ideal) x0 x1) x2 x3 x4 r j := by
  rw [val_main_v30_apply, val_main_v27_apply, v24_at, v26_at, v29_at, Ideal.addf_def, Ideal.addf_def]
  unfold Cert.Sage.conv
  rfl

/-- The plain program's rectified first layer is `hidden` of the features and of its own neighbourhood means. -/
theorem hidden_ref (x0 : FVec Ideal S100000x32 .f32) (x1 : (⟨S2x1600000, .i32⟩ : BufTy).Contents (Elt Ideal))
    (x2 : FVec Ideal S16x32 .f32) (x3 : FVec Ideal S16 .f32) (x4 : FVec Ideal S16x32 .f32) :
    val_main_v31 (F := Ideal) x0 x1 x2 x3 x4 = Cert.Sage.hidden x0 (val_main_v22 (F := Ideal) x0 x1) x2 x3 x4 := by
  funext i
  obtain ⟨r, j, rfl⟩ : ∃ (r : Fin 100000) (j : Fin 16), i = ix2 r j := ⟨i 0, i 1, eq_ix2 i⟩
  rw [val_main_v31_apply, pre_hidden, val_main_call0_v0_apply, val_main_call0_cst_apply,
    Cert.Sage.hidden_apply, Ideal.maximumf_def, Ideal.ofBits_def, Ideal.ofBits_zero_f32]

/-! ### Second layer and the head: the stages' index maps at a pair of coordinates -/

theorem lidx52 (r : Fin 100000) (q : Fin 8) (k : Fin 16) : lidx_main_v52 (ix2 r q) k = ix2 r k :=
  funext fun a => Fin.ext (by match a with | ⟨0, _⟩ => rfl | ⟨1, _⟩ => rfl)

theorem ridx52 (r : Fin 100000) (q : Fin 8) (k : Fin 16) :
    idx_main_v51 (ridx_main_v52 (ix2 r q) k) = ix2 q k :=
  funext fun a => Fin.ext (by match a with | ⟨0, _⟩ => rfl | ⟨1, _⟩ => rfl)

theorem bidx54 (r : Fin 100000) (q : Fin 8) : idx_main_v53 (idx_main_v54 (ix2 r q)) = ix1 q :=
  funext fun a => Fin.ext (by match a with | ⟨0, _⟩ => rfl)

theorem lidx57 (r : Fin 100000) (q : Fin 8) (k : Fin 16) : lidx_main_v57 (ix2 r q) k = ix2 r k :=
  funext fun a => Fin.ext (by match a with | ⟨0, _⟩ => rfl | ⟨1, _⟩ => rfl)

theorem ridx57 (r : Fin 100000) (q : Fin 8) (k : Fin 16) :
    idx_main_v56 (ridx_main_v57 (ix2 r q) k) = ix2 q k :=
  funext fun a => Fin.ext (by match a with | ⟨0, _⟩ => rfl | ⟨1, _⟩ => rfl)

theorem lidx60 (r : Fin 100000) (z : Fin 1) (k : Fin 8) : lidx_main_v60 (ix2 r z) k = ix2 r k :=
  funext fun a => Fin.ext (by match a with | ⟨0, _⟩ => rfl | ⟨1, _⟩ => rfl)

/-- The only column of the head's weights is column zero. -/
theorem ridx60 (r : Fin 100000) (z : Fin 1) (k : Fin 8) :
    idx_main_v59 (ridx_main_v60 (ix2 r z) k) = ix2 (0 : Fin 1) k := by
  obtain rfl : z = 0 := Subsingleton.elim z 0
  exact funext fun a => Fin.ext (by match a with | ⟨0, _⟩ => rfl | ⟨1, _⟩ => rfl)

theorem bidx62 (r : Fin 100000) (z : Fin 1) : idx_main_v61 (idx_main_v62 (ix2 r z)) = ix1 (0 : Fin 1) :=
  funext fun a => Fin.ext (by match a with | ⟨0, _⟩ => rfl)

/-- The second layer's means times the transposed left weights, at row `r` and channel `q`. -/
theorem v52_at (x0 : FVec Ideal S100000x32 .f32) (x1 : (⟨S2x1600000, .i32⟩ : BufTy).Contents (Elt Ideal))
    (x2 : FVec Ideal S16x32 .f32) (x3 : FVec Ideal S16 .f32) (x4 : FVec Ideal S16x32 .f32)
    (x5 : FVec Ideal S8x16 .f32) (r : Fin 100000) (q : Fin 8) :
    val_main_v52 (F := Ideal) x0 x1 x2 x3 x4 x5 (ix2 r q)
      = ∑ k : Fin 16, val_main_v50 (F := Ideal) x0 x1 x2 x3 x4 (ix2 r k) * x5 (ix2 q k) := by
  rw [val_main_v52_apply]
  exact Finset.sum_congr rfl fun k _ => by rw [lidx52, val_main_v51_apply, ridx52]

/-- The second bias, repeated along the rows. -/
theorem v54_at (x6 : FVec Ideal S8 .f32) (r : Fin 100000) (q : Fin 8) :
    val_main_v54 (F := Ideal) x6 (ix2 r q) = x6 (ix1 q) := by
  rw [val_main_v54_apply, val_main_v53_apply, bidx54]

/-- The hidden features times the transposed right weights. -/
theorem v57_at (x0 : FVec Ideal S100000x32 .f32) (x1 : (⟨S2x1600000, .i32⟩ : BufTy).Contents (Elt Ideal))
    (x2 : FVec Ideal S16x32 .f32) (x3 : FVec Ideal S16 .f32) (x4 : FVec Ideal S16x32 .f32)
    (x7 : FVec Ideal S8x16 .f32) (r : Fin 100000) (q : Fin 8) :
    val_main_v57 (F := Ideal) x0 x1 x2 x3 x4 x7 (ix2 r q)
      = ∑ k : Fin 16, val_main_v31 (F := Ideal) x0 x1 x2 x3 x4 (ix2 r k) * x7 (ix2 q k) := by
  rw [val_main_v57_apply]
  exact Finset.sum_congr rfl fun k _ => by rw [lidx57, val_main_v56_apply, ridx57]

/-- The second layer (no rectification), at row `r` and channel `q`. -/
theorem v58_at (x0 : FVec Ideal S100000x32 .f32) (x1 : (⟨S2x1600000, .i32⟩ : BufTy).Contents (Elt Ideal))
    (x2 : FVec Ideal S16x32 .f32) (x3 : FVec Ideal S16 .f32) (x4 : FVec Ideal S16x32 .f32)
    (x5 : FVec Ideal S8x16 .f32) (x6 : FVec Ideal S8 .f32) (x7 : FVec Ideal S8x16 .f32)
    (r : Fin 100000) (q : Fin 8) :
    val_main_v58 (F := Ideal) x0 x1 x2 x3 x4 x5 x6 x7 (ix2 r q)
      = Cert.Sage.conv (val_main_v31 (F := Ideal) x0 x1 x2 x3 x4) (val_main_v50 (F := Ideal) x0 x1 x2 x3 x4)
          x5 x6 x7 r q := by
  rw [val_main_v58_apply, val_main_v55_apply, v52_at, v54_at, v57_at, Ideal.addf_def, Ideal.addf_def]
  unfold Cert.Sage.conv
  rfl

/-- The head's product: the second layer's row against the single row of the head's weights. -/
theorem v60_at (x0 : FVec Ideal S100000x32 .f32) (x1 : (⟨S2x1600000, .i32⟩ : BufTy).Contents (Elt Ideal))
    (x2 : FVec Ideal S16x32 .f32) (x3 : FVec Ideal S16 .f32) (x4 : FVec Ideal S16x32 .f32)
    (x5 : FVec Ideal S8x16 .f32) (x6 : FVec Ideal S8 .f32) (x7 : FVec Ideal S8x16 .f32)
    (x8 : FVec Ideal S1x8 .f32) (r : Fin 100000) (z : Fin 1) :
    val_main_v60 (F := Ideal) x0 x1 x2 x3 x4 x5 x6 x7 x8 (ix2 r z)
      = ∑ q : Fin 8, Cert.Sage.conv (val_main_v31 (F := Ideal) x0 x1 x2 x3 x4)
          (val_main_v50 (F := Ideal) x0 x1 x2 x3 x4) x5 x6 x7 r q * x8 (ix2 (0 : Fin 1) q) := by
  rw [val_main_v60_apply]
  exact Finset.sum_congr rfl fun k _ => by rw [lidx60, v58_at, val_main_v59_apply, ridx60]

/-- The head's bias, repeated along the rows. -/
theorem v62_at (x9 : FVec Ideal S1 .f32) (r : Fin 100000) (z : Fin 1) :
    val_main_v62 (F := Ideal) x9 (ix2 r z) = x9 (ix1 (0 : Fin 1)) := by
  rw [val_main_v62_apply, val_main_v61_apply, bidx62]

/-- The plain program's result is `head` of its hidden features and of their neighbourhood means. -/
theorem head_ref (x0 : FVec Ideal S100000x32 .f32) (x1 : (⟨S2x1600000, .i32⟩ : BufTy).Contents (Elt Ideal))
    (x2 : FVec Ideal S16x32 .f32) (x3 : FVec Ideal S16 .f32) (x4 : FVec Ideal S16x32 .f32)
    (x5 : FVec Ideal S8x16 .f32) (x6 : FVec Ideal S8 .f32) (x7 : FVec Ideal S8x16 .f32)
    (x8 : FVec Ideal S1x8 .f32) (x9 : FVec Ideal S1 .f32) :
    val_main_v63 (F := Ideal) x0 x1 x2 x3 x4 x5 x6 x7 x8 x9
      = Cert.Sage.head (val_main_v31 (F := Ideal) x0 x1 x2 x3 x4) (val_main_v50 (F := Ideal) x0 x1 x2 x3 x4) x5 x6 x7 x8 x9 := by
  funext i
  obtain ⟨r, z, rfl⟩ : ∃ (r : Fin 100000) (z : Fin 1), i = ix2 r z := ⟨i 0, i 1, eq_ix2 i⟩
  rw [val_main_v63_apply, v60_at, v62_at, Cert.Sage.head_apply, Ideal.addf_def]

end Cert.ReferenceIdeal.RefValue

end
-- ==== Proof.MeanLaw.lean ====
/-
  Dividing by a degree and multiplying by its reciprocal.

  One program scales an aggregated row by `1 / max(deg, 1)`, computed once as a column and multiplied in; the other
  divides the row by `max(deg, 1)`. On the extended reals a quotient by `d ≠ 0` is the product with `d⁻¹`, and
  `1 / d` is `d⁻¹`; since `max(deg, 1) ≥ 1` is never zero the two agree at every value of the row and of the degree,
  the infinite ones included. No finiteness of anything is used.
-/
import Idealize.ShloMosaic.Lib.ValueIdx
import Idealize.ShloMosaic.Lib.Pipeline.Value
import Idealize.ShloMosaic.PureOps.Ideal.Laws

noncomputable section

namespace Cert.Sage

open Idealize.ShloMosaic Idealize.ShloMosaic.ValueIdx

/-- The single-precision pattern of one denotes the real number one. -/
theorem ofBits_one_f32 : Ideal.ofBits .f32 0x3F800000#32 = 1 := by
  simp [Ideal.ofBits, Ideal.ieee, -EReal.coe_mul]; norm_num

/-- For `d ≥ 1`: `s · (1 / d) = s / d`. -/
theorem mul_one_div (s d : EReal) (hd : (1 : EReal) ≤ d) : s * Ideal.div 1 d = Ideal.div s d := by
  have h0 : d ≠ 0 := ne_of_gt (lt_of_lt_of_le zero_lt_one hd)
  simp only [Ideal.div, if_neg h0, one_mul]

variable {N D : ℕ}

/-- A column `[N]` made `[N, 1]` and then spread over `D` columns reads, at `(r, j)`, the column at `r`. -/
theorem spread_apply (v : FVec Ideal ⟨1, ![N]⟩ .f32)
    (h1 : (⟨1, ![N]⟩ : Shape).BroadcastsInDim ⟨2, ![N, 1]⟩ (![0] : Fin 1 → Fin 2))
    (h2 : (⟨2, ![N, 1]⟩ : Shape).BroadcastsInDim ⟨2, ![N, D]⟩ (![0, 1] : Fin 2 → Fin 2)) (r : Fin N) (j : Fin D) :
    broadcastInDim ⟨2, ![N, D]⟩ ![0, 1] h2 (broadcastInDim ⟨2, ![N, 1]⟩ ![0] h1 v) (ix2 r j) = v (ix1 r) := by
  rw [broadcastInDim_apply _ h2 _ (ix2 r j) (ix2 r (0 : Fin 1)) (fun a => by
    match a with
    | ⟨0, _⟩ => show r.val = if N = 1 then 0 else r.val; split <;> [(have := r.isLt; omega); rfl]
    | ⟨1, _⟩ => show (0 : ℕ) = if (1 : ℕ) = 1 then 0 else j.val; rw [if_pos rfl])]
  exact broadcastInDim_apply _ h1 v (ix2 r (0 : Fin 1)) (ix1 r) (fun a => by
    match a with
    | ⟨0, _⟩ => show r.val = if N = 1 then 0 else r.val; split <;> [(have := r.isLt; omega); rfl])

/-- The aggregated rows `s` times the spread column `1 / max(deg, 1)` are `s` divided by the spread column
    `max(deg, 1)`. -/
theorem mul_recip_eq_div (s : FVec Ideal ⟨2, ![N, D]⟩ .f32) (deg : FVec Ideal ⟨1, ![N]⟩ .f32)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, D]⟩ (![0, 1] : Fin 2 → Fin 2)) :
    mulf s (broadcastInDim ⟨2, ![N, D]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf deg (broadcastInDim ⟨1, ![N]⟩ ![] h0 (constant (F := Ideal) ⟨0, ![]⟩ .f32 0x3F800000#32))))))
      = Host.divf s (broadcastInDim ⟨2, ![N, D]⟩ ![0, 1] h2 (broadcastInDim ⟨2, ![N, 1]⟩ ![0] h1
          (maximumf deg (broadcastInDim ⟨1, ![N]⟩ ![] h0 (constant (F := Ideal) ⟨0, ![]⟩ .f32 0x3F800000#32))))) := by
  funext i
  obtain ⟨r, j, rfl⟩ : ∃ (r : Fin N) (j : Fin D), i = ix2 r j := ⟨i 0, i 1, eq_ix2 i⟩
  have hone : ∀ k : (⟨1, ![N]⟩ : Shape).Idx,
      broadcastInDim ⟨1, ![N]⟩ ![] h0 (constant (F := Ideal) ⟨0, ![]⟩ .f32 0x3F800000#32) k = 1 := fun k => by
    rw [broadcastInDim_apply _ h0 _ k ix0 (fun a => a.elim0)]
    exact ofBits_one_f32
  show s (ix2 r j) * _ = Ideal.div (s (ix2 r j)) _
  rw [spread_apply, spread_apply]
  show s (ix2 r j) * Ideal.div (broadcastInDim ⟨1, ![N]⟩ ![] h0 (constant (F := Ideal) ⟨0, ![]⟩ .f32 0x3F800000#32) (ix1 r))
      (max (deg (ix1 r)) (broadcastInDim ⟨1, ![N]⟩ ![] h0 (constant (F := Ideal) ⟨0, ![]⟩ .f32 0x3F800000#32) (ix1 r)))
    = Ideal.div (s (ix2 r j)) (max (deg (ix1 r)) (broadcastInDim ⟨1, ![N]⟩ ![] h0 (constant (F := Ideal) ⟨0, ![]⟩ .f32 0x3F800000#32) (ix1 r)))
  rw [hone]
  exact mul_one_div _ _ (le_max_right _ _)

end Cert.Sage

end
-- ==== Proof.MeansAgree.lean ====
/-
  The two programs' neighbourhood means are one array.

  Both gather the same features at the same wrapped sources and scatter-add them at the same destinations; the in-degree
  is the same scatter-add of ones. They differ only in how the mean is taken: the plain program divides the aggregated
  rows by the spread column `max(deg, 1)`, the kernel program multiplies them by the spread column `1 / max(deg, 1)`
  — equal at every extended real because `max(deg, 1) ≥ 1` is never zero.
-/
import proofs.«140144_j22299470201097_1_alg».proof.Proof.KernelHost
import proofs.«140144_j22299470201097_1_alg».proof.Proof.MeanLaw
import proofs.«140144_j22299470201097_1_alg».proof.Proof.Gen.ReferenceIdeal.Read

noncomputable section

namespace Cert.Proof.Means

open Idealize.ShloMosaic
open Cert.KernelIdeal.HostValue

/-- The plain program's aggregated features are the kernel program's: the same gather and scatter-add of the same
    operands. -/
theorem agg32_eq (x : FVec Ideal Cert.KernelIdeal.S100000x32 .f32) (e : (⟨Cert.KernelIdeal.S2x1600000, .i32⟩ : BufTy).Contents (Elt Ideal)) :
    Cert.ReferenceIdeal.Read.val_main_v13 (F := Ideal) x e = agg32 (F := Ideal) x e := rfl

/-- The same for the in-degree, computed twice by the plain program and once by the kernel program. -/
theorem deg_eq (e : (⟨Cert.KernelIdeal.S2x1600000, .i32⟩ : BufTy).Contents (Elt Ideal)) :
    Cert.ReferenceIdeal.Read.val_main_v17 (F := Ideal) e = deg (F := Ideal) e := rfl
theorem deg_eq' (e : (⟨Cert.KernelIdeal.S2x1600000, .i32⟩ : BufTy).Contents (Elt Ideal)) :
    Cert.ReferenceIdeal.Read.val_main_v45 (F := Ideal) e = deg (F := Ideal) e := rfl

/-- The first layer's means agree. -/
theorem means32_agree (x : FVec Ideal Cert.KernelIdeal.S100000x32 .f32) (e : (⟨Cert.KernelIdeal.S2x1600000, .i32⟩ : BufTy).Contents (Elt Ideal)) :
    Cert.ReferenceIdeal.Read.val_main_v22 (F := Ideal) x e = mean32 (F := Ideal) x e := by
  unfold Cert.ReferenceIdeal.Read.val_main_v22 Cert.ReferenceIdeal.Read.val_main_v21 Cert.ReferenceIdeal.Read.val_main_v20
    Cert.ReferenceIdeal.Read.val_main_v19 mean32 invCol
  rw [agg32_eq, deg_eq]
  exact (Cert.Sage.mul_recip_eq_div (N := 100000) (D := 32) (agg32 (F := Ideal) x e) (deg (F := Ideal) e)
    Cert.KernelIdeal.Facts₀.bcast_S_S100000 Cert.KernelIdeal.Facts₀.bcast_S100000_S100000x1_0 Cert.KernelIdeal.Facts₀.bcast_S100000x1_S100000x32_0_1).symm

/-- The second layer's means agree, for any hidden features `h` both programs aggregate. -/
theorem means16_agree (h : FVec Ideal Cert.KernelIdeal.S100000x16 .f32) (e : (⟨Cert.KernelIdeal.S2x1600000, .i32⟩ : BufTy).Contents (Elt Ideal)) :
    Host.divf (Host.scatterAdd Cert.ReferenceIdeal.scatter_S100000x16_S1600000x1_S1600000x16_1_0_0_1
        (Cert.ReferenceIdeal.Read.val_main_v39 (F := Ideal)) (Cert.ReferenceIdeal.Read.val_main_v40 (F := Ideal) e)
        (Host.gather Cert.ReferenceIdeal.gather_S100000x16_S1600000x1_S1600000x16_1_0_n_n_0_1_116 h (Cert.ReferenceIdeal.Read.val_main_v37 (F := Ideal) e)))
      (Cert.ReferenceIdeal.Read.val_main_v49 (F := Ideal) e)
    = mean16 (F := Ideal) h e := by
  have ea : Host.scatterAdd Cert.ReferenceIdeal.scatter_S100000x16_S1600000x1_S1600000x16_1_0_0_1
        (Cert.ReferenceIdeal.Read.val_main_v39 (F := Ideal)) (Cert.ReferenceIdeal.Read.val_main_v40 (F := Ideal) e)
        (Host.gather Cert.ReferenceIdeal.gather_S100000x16_S1600000x1_S1600000x16_1_0_n_n_0_1_116 h (Cert.ReferenceIdeal.Read.val_main_v37 (F := Ideal) e))
      = agg16 (F := Ideal) h e := rfl
  rw [ea]
  unfold Cert.ReferenceIdeal.Read.val_main_v49 Cert.ReferenceIdeal.Read.val_main_v48 Cert.ReferenceIdeal.Read.val_main_v47 mean16 invCol
  rw [deg_eq']
  exact (Cert.Sage.mul_recip_eq_div (N := 100000) (D := 16) (agg16 (F := Ideal) h e) (deg (F := Ideal) e)
    Cert.KernelIdeal.Facts₀.bcast_S_S100000 Cert.KernelIdeal.Facts₀.bcast_S100000_S100000x1_0 Cert.KernelIdeal.Facts₀.bcast_S100000x1_S100000x16_0_1).symm

end Cert.Proof.Means

end
-- ==== Proof.Bridge.lean ====
/-
  Both programs end at one function of the arguments.

  `network` is the two-layer network over the kernel program's own neighbourhood means: the hidden features
  `h = hidden x (mean32 x e) Wl1 bl1 Wr1` and the result `head h (mean16 h e) Wl2 bl2 Wr2 Wfc bfc`. The kernel program's
  final buffer is that (`kernel_result`): the second region's array is `head` of what it found, which is the first
  region's array — `hidden` of what THAT found — and the means the host made of it in between, with the arguments
  untouched. The plain program's result is the same (`reference_result`): its stages are `hidden` and `head` of its own
  means, and its means are the kernel program's.
-/
import proofs.«140144_j22299470201097_1_alg».proof.Proof.KernelRun
import proofs.«140144_j22299470201097_1_alg».proof.Proof.KernelHost
import proofs.«140144_j22299470201097_1_alg».proof.Proof.Region0Value
import proofs.«140144_j22299470201097_1_alg».proof.Proof.Region1Value
import proofs.«140144_j22299470201097_1_alg».proof.Proof.RefValue
import proofs.«140144_j22299470201097_1_alg».proof.Proof.MeansAgree

set_option maxRecDepth 16384

noncomputable section

namespace Cert.Proof.Bridge

open Idealize.ShloMosaic Idealize.ShloMosaic.TcCoe Idealize.SL.Sem
open Cert.KernelIdeal.HostValue

/-- The network as one function of the ten arguments. -/
def network (x : FVec Ideal Cert.KernelIdeal.S100000x32 .f32) (e : (⟨Cert.KernelIdeal.S2x1600000, .i32⟩ : BufTy).Contents (Elt Ideal))
    (Wl1 : FVec Ideal Cert.KernelIdeal.S16x32 .f32) (bl1 : FVec Ideal Cert.KernelIdeal.S16 .f32) (Wr1 : FVec Ideal Cert.KernelIdeal.S16x32 .f32)
    (Wl2 : FVec Ideal Cert.KernelIdeal.S8x16 .f32) (bl2 : FVec Ideal Cert.KernelIdeal.S8 .f32) (Wr2 : FVec Ideal Cert.KernelIdeal.S8x16 .f32)
    (Wfc : FVec Ideal Cert.KernelIdeal.S1x8 .f32) (bfc : FVec Ideal Cert.KernelIdeal.S1 .f32) : FVec Ideal Cert.KernelIdeal.S100000x1 .f32 :=
  Cert.Sage.head (Cert.Sage.hidden x (mean32 (F := Ideal) x e) Wl1 bl1 Wr1)
    (mean16 (F := Ideal) (Cert.Sage.hidden x (mean32 (F := Ideal) x e) Wl1 bl1 Wr1) e) Wl2 bl2 Wr2 Wfc bfc

section Kernel
open Cert.KernelIdeal Cert.KernelIdeal.Gen

variable (m : (ℓ : Loc nD τ sig) → Buf (Elt Ideal) ℓ) (ρ : Dev nD → PrngReg)

/-- The kernel program's last boundary holds the network of the arguments in its result buffer. -/
theorem kernel_result (c : Dev nD) :
    W4 (F := Ideal) m ρ c (Proc.devRef .tc main_v38) = network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  refine (W4_arr m ρ c 7).trans ?_
  rw [Cert.KernelIdeal.Region1.head_array (V3 m ρ) c]
  rw [V3_means, V3_hidden, V3_arg5, V3_arg6, V3_arg7, V3_arg8, V3_arg9]
  rw [Cert.KernelIdeal.Region0.hidden_array (V1 m ρ) c]
  rw [V1_means, V1_arg0, V1_arg2, V1_arg3, V1_arg4]
  rfl

end Kernel

section Reference
open Cert.ReferenceIdeal Cert.ReferenceIdeal.Read

variable (m : (ℓ : Loc nD τ sig) → Buf (Elt Ideal) ℓ)

/-- The plain program's result term is the network of the arguments. -/
theorem reference_result (c : Dev nD) :
    Cert.ReferenceIdeal.Value.res_main_v63 (F := Ideal) m c = network (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) := by
  rw [val_main_v63_eq, Cert.ReferenceIdeal.RefValue.head_ref]
  have h50 : ∀ (x0 : FVec Ideal S100000x32 .f32) (x1 : (⟨S2x1600000, .i32⟩ : BufTy).Contents (Elt Ideal))
      (x2 : FVec Ideal S16x32 .f32) (x3 : FVec Ideal S16 .f32) (x4 : FVec Ideal S16x32 .f32),
      val_main_v50 (F := Ideal) x0 x1 x2 x3 x4 = mean16 (F := Ideal) (val_main_v31 (F := Ideal) x0 x1 x2 x3 x4) x1 :=
    fun x0 x1 x2 x3 x4 => Cert.Proof.Means.means16_agree (val_main_v31 (F := Ideal) x0 x1 x2 x3 x4) x1
  rw [h50, Cert.ReferenceIdeal.RefValue.hidden_ref, Cert.Proof.Means.means32_agree]
  rfl

end Reference

end Cert.Proof.Bridge

end
-- ==== Proof.lean ====
/- The certificate of a two-layer mean-aggregating graph network: a Pallas kernel program (two row-tiled kernel regions
   among host gathers and scatter-adds) against its plain jnp reference, equal over the extended reals.
   The three frames are generated (the reference's is its generated run with the result dropped); nothing was rewritten
   by the idealization, so `preserves` is trivial; `algebraic` says both programs end at `Bridge.network` of the
   arguments: the kernel program by its run re-posted with the result buffer (KernelRun), the regions' arrays as
   `hidden` and `head` of what each region found (Region0Value, Region1Value) and the host stretches read back
   (KernelHost); the reference by its generated run, its stages as `hidden` and `head` (RefValue) and its neighbourhood
   means identified with the kernel program's (MeansAgree, over the law `s · (1/d) = s / d` for `d ≥ 1`, MeanLaw). -/
import proofs.«140144_j22299470201097_1_alg».proof.Defs
import proofs.«140144_j22299470201097_1_alg».proof.Proof.Gen.Kernel
import proofs.«140144_j22299470201097_1_alg».proof.Proof.Gen.Kernel.Skeleton
import proofs.«140144_j22299470201097_1_alg».proof.Proof.Gen.Kernel.Launch
import proofs.«140144_j22299470201097_1_alg».proof.Proof.Gen.Kernel.Points
import proofs.«140144_j22299470201097_1_alg».proof.Proof.Gen.Kernel.Frame
import proofs.«140144_j22299470201097_1_alg».proof.Proof.Gen.KernelIdeal
import proofs.«140144_j22299470201097_1_alg».proof.Proof.Gen.KernelIdeal.Skeleton
import proofs.«140144_j22299470201097_1_alg».proof.Proof.Gen.KernelIdeal.Launch
import proofs.«140144_j22299470201097_1_alg».proof.Proof.Gen.KernelIdeal.Points
import proofs.«140144_j22299470201097_1_alg».proof.Proof.Gen.KernelIdeal.Frame
import proofs.«140144_j22299470201097_1_alg».proof.Proof.Gen.ReferenceIdeal
import proofs.«140144_j22299470201097_1_alg».proof.Proof.Gen.Pre_finite_inputs
import proofs.«140144_j22299470201097_1_alg».proof.Proof.Gen.ReferenceIdeal.Run
import proofs.«140144_j22299470201097_1_alg».proof.Proof.Gen.ReferenceIdeal.Read
import proofs.«140144_j22299470201097_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with `network` of arguments that agree. -/
theorem algebraic : Cert.algebraic_KernelIdeal_ReferenceIdeal := by
  intro m ρ m' ρ' _ hagree
  refine ⟨fun c => Bridge.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Bridge.kernel_result m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    rw [Bridge.reference_result m' c]
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
